-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x4096 : Shape := ⟨2, ![2048, 4096]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x4096 .f32) (main_arg8 : FVec F S2048 .f32) (main_arg9 : FVec F S2048x4096 .f32) (main_arg10 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x4096 .f32 := Host.absf main_arg9
  let main_cst_16 : FVec F S_ .f32 := constant S_ .f32 0x7F800000#32
  let main_v45 : FVec F S2048x4096 .f32 := broadcastInDim S2048x4096 ![] bcast_S_S2048x4096 main_cst_16
  let main_v46 : IVec S2048x4096 1 := cmpf .olt main_v44 main_v45
  let main_c_17 : IVec S_ 1 := constantI S_ 1 1#1
  let main_v47 : IVec S_ 1 := (fun x v => Host.reduce IntOp.andi x v reducesTo_S2048x4096_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x2048 .f32) (main_arg1 : FVec F S8192x2048 .f32) (main_arg2 : FVec F S8192x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S8192x2048 : Shape := ⟨2, ![8192, 2048]⟩
abbrev S2048x4096 : Shape := ⟨2, ![2048, 4096]⟩
abbrev S2048 : Shape := ⟨1, ![2048]⟩
abbrev S8192x4096 : Shape := ⟨2, ![8192, 4096]⟩
abbrev S1x2048 : Shape := ⟨2, ![1, 2048]⟩
abbrev S512x256 : Shape := ⟨2, ![512, 256]⟩
abbrev S2048x256 : Shape := ⟨2, ![2048, 256]⟩
abbrev S512x2048 : Shape := ⟨2, ![512, 2048]⟩
abbrev S256x2048 : Shape := ⟨2, ![256, 2048]⟩

abbrev nBuf : Space → Nat
  | .hbm => 23
  | .vmem => 24
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S8192x4096, .f32⟩
  | .hbm, ⟨12, _⟩ => ⟨S8192x4096, .bf16⟩
  | .hbm, ⟨13, _⟩ => ⟨S2048x4096, .bf16⟩
  | .hbm, ⟨14, _⟩ => ⟨S2048x4096, .bf16⟩
  | .hbm, ⟨15, _⟩ => ⟨S2048x4096, .bf16⟩
  | .hbm, ⟨16, _⟩ => ⟨S2048x4096, .bf16⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S8192x2048, .f32⟩
  | .hbm, ⟨22, _⟩ => ⟨S8192x2048, .f32⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .f32⟩
  | .local _ .vmem, ⟨21, _⟩ => ⟨S512x2048, .f32⟩
  | .local _ .vmem, ⟨22, _⟩ => ⟨S512x2048, .f32⟩
  | .local _ .vmem, ⟨23, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v41 : BitVec 1 := Scalar.cmpi .eq arg1 c15_i32
  let v42 : BitVec 32 := Scalar.extui v41
  let c0_i32_29 : BitVec 32 := 0#32
  let v43 : BitVec 1 := Scalar.cmpi .ne v42 c0_i32_29
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  concatenates_S8192x2048_S8192x2048_S8192x4096_d1 : Shape.Concatenates [S8192x2048, S8192x2048] S8192x4096 1
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  transposes_S2048x256_p1_0_S256x2048 : S2048x256.Transposes [1, 0] S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x4096.size a
  hwx0_0 : ∀ i : grid0.Coords, EltTy.bits .bf16 = 32 ∨ (Rect.block (s := S8192x4096) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x4096.size a
  hwx0_1 : ∀ i : grid0.Coords, EltTy.bits .bf16 = 32 ∨ (Rect.block (s := S2048x4096) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x4096.size a
  hwx0_2 : ∀ i : grid0.Coords, EltTy.bits .bf16 = 32 ∨ (Rect.block (s := S2048x4096) S2048x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x4096.size a
  hwx0_3 : ∀ i : grid0.Coords, EltTy.bits .bf16 = 32 ∨ (Rect.block (s := S2048x4096) S2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x4096.size a
  hwx0_4 : ∀ i : grid0.Coords, EltTy.bits .bf16 = 32 ∨ (Rect.block (s := S2048x4096) S2048x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x2048.size a ≤ S8192x2048.size a
  hwx0_9 : ∀ i : grid0.Coords, EltTy.bits .f32 = 32 ∨ (Rect.block (s := S8192x2048) S512x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x2048.size a ≤ S8192x2048.size a
  hwx0_10 : ∀ i : grid0.Coords, EltTy.bits .f32 = 32 ∨ (Rect.block (s := S8192x2048) S512x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x2048.size a ≤ S8192x2048.size a
  hwx0_11 : ∀ i : grid0.Coords, EltTy.bits .f32 = 32 ∨ (Rect.block (s := S8192x2048) S512x2048.size (cc0_transform_11 i) (hinb0_11 i)).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_v1) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S512x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10_0) S512x2048.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v10_1) S512x2048.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | ⟨_ + 12, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x4096 : Shape := ⟨2, ![2048, 4096]⟩
abbrev S2048 : Shape := ⟨1, ![2048]⟩
abbrev S8192x4096 : Shape := ⟨2, ![8192, 4096]⟩
abbrev S8192 : Shape := ⟨1, ![8192]⟩
abbrev S4096x8192 : Shape := ⟨2, ![4096, 8192]⟩
abbrev S8192x8192 : Shape := ⟨2, ![8192, 8192]⟩
abbrev S1x8192 : Shape := ⟨2, ![1, 8192]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S8192x4096, .f32⟩
  | .hbm, ⟨12, _⟩ => ⟨S8192x4096, .f32⟩
  | .hbm, ⟨13, _⟩ => ⟨S8192, .f32⟩
  | .hbm, ⟨14, _⟩ => ⟨S4096x8192, .f32⟩
  | .hbm, ⟨15, _⟩ => ⟨S8192x8192, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S8192x2048_S8192x2048_S8192x4096_d1 : Shape.Concatenates [S8192x2048, S8192x2048] S8192x4096 1
  concatenates_S2048x4096_S2048x4096_S2048x4096_S2048x4096_S8192x4096_d0 : Shape.Concatenates [S2048x4096, S2048x4096, S2048x4096, S2048x4096] S8192x4096 0
  concatenates_S2048_S2048_S2048_S2048_S8192_d0 : Shape.Concatenates [S2048, S2048, S2048, S2048] S8192 0
  transposes_S8192x4096_S4096x8192_1_0 : S8192x4096.Transposes [1, 0] S4096x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x2048_0_0 : S8192x8192.Slices ![0, 0] S8192x2048
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  bcast_S_S8192x2048 : S_.BroadcastsInDim S8192x2048 (![] : Fin 0 → Fin S8192x2048.rank)
  dot_S8192x4096_S4096x8192_S8192x8192_1_0_0_1_n_n_wf : DotDims.WF S8192x4096 S4096x8192 S8192x8192 [1] [0] [0] [1] [] []

variable [Facts₀]

def dot_S8192x4096_S4096x8192_S8192x8192_1_0_0_1_n_n : DotDims S8192x4096 S4096x8192 S8192x8192 where
  lhsContracting := [1]
  rhsContracting := [0]
  lhsNonContracting := [0]
  rhsNonContracting := [1]
  lhsBatch := []
  rhsBatch := []
  wf := dot_S8192x4096_S4096x8192_S8192x8192_1_0_0_1_n_n_wf

class Facts : Prop extends Facts₀ where

variable [Facts]
-- ==== Proof.KPieces.lean ====
/-
  What each control case of the kernel body leaves behind, as the body's arithmetic applied to the blocks it loaded.

  The body has three cases over the run of sixteen steps along the joined input's columns. At the first step it stores
  zero into the four gate accumulators and then adds the step's block product to each, so each accumulator ends at
  "zero, then one update". At every later step it adds the step's block product to what the step before left. At the
  last step it also adds the biases, applies the gate functions and stores the new hidden and cell states, computed
  from the accumulators as that same step has just updated them.
-/
import proofs.«153372_j19009525252387_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- A block loaded or stored whole starts at the origin. -/
theorem hz : (![0, 0] : Fin 2 → Nat) = fun _ => 0 := funext fun a => by fin_cases a <;> rfl

/-! ## The first step of a run: zero, then one update -/

section First
variable (c : Dev nD) (i : grid0.Coords)
  (arg2 : Memref sig .tc .vmem S512x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S2048x256 .bf16) (harg5 : arg5.IsWhole)
  (arg6 : Memref sig .tc .vmem S2048x256 .bf16) (harg6 : arg6.IsWhole)
  (arg7 : Memref sig .tc .vmem S1x2048 .f32) (harg7 : arg7.IsWhole)
  (arg8 : Memref sig .tc .vmem S1x2048 .f32) (harg8 : arg8.IsWhole)
  (arg9 : Memref sig .tc .vmem S1x2048 .f32) (harg9 : arg9.IsWhole)
  (arg10 : Memref sig .tc .vmem S1x2048 .f32) (harg10 : arg10.IsWhole)
  (arg11 : Memref sig .tc .vmem S512x2048 .f32) (harg11 : arg11.IsWhole)
  (arg12 : Memref sig .tc .vmem S512x2048 .f32) (harg12 : arg12.IsWhole)
  (arg13 : Memref sig .tc .vmem S512x2048 .f32) (harg13 : arg13.IsWhole)
  (arg14 : Memref sig .tc .vmem S512x2048 .f32) (harg14 : arg14.IsWhole)
  (arg15 : Memref sig .tc .vmem S512x2048 .f32) (harg15 : arg15.IsWhole)
  (arg16 : Memref sig .tc .vmem S512x2048 .f32) (harg16 : arg16.IsWhole)
  (arg17 : Memref sig .tc .vmem S512x2048 .f32) (harg17 : arg17.IsWhole)
  (hc0 : cond0_0 i) (hc1 : ¬cond0_1 i)
  (x0 : Vec F S512x256 .bf16) (x1 x2 x3 x4 : Vec F S2048x256 .bf16) (x5 x6 x7 x8 : Vec F S1x2048 .f32) (x9 : Vec F S512x2048 .f32)

/-- Accumulator 0 after the first step: the update applied to the zero just stored. -/
theorem first0 : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = k0_pay10 x0 (k0_pay5 (F := F)) x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x256) hz, View.ld_unit_zero (S := S2048x256) hz, View.ld_unit_zero (S := S1x2048) hz, View.ld_unit_zero (S := S512x2048) hz]

/-- Accumulator 1 after the first step: the update applied to the zero just stored. -/
theorem first1 : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = k0_pay11 x0 (k0_pay6 (F := F)) x2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x256) hz, View.ld_unit_zero (S := S2048x256) hz, View.ld_unit_zero (S := S1x2048) hz, View.ld_unit_zero (S := S512x2048) hz]

/-- Accumulator 2 after the first step: the update applied to the zero just stored. -/
theorem first2 : sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = k0_pay1 (k0_pay12 x0 (k0_pay7 (F := F)) x3) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x256) hz, View.ld_unit_zero (S := S2048x256) hz, View.ld_unit_zero (S := S1x2048) hz, View.ld_unit_zero (S := S512x2048) hz]

/-- Accumulator 3 after the first step: the update applied to the zero just stored. -/
theorem first3 : sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = k0_pay2 (k0_pay9 x0) (k0_pay8 (F := F)) x4 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x256) hz, View.ld_unit_zero (S := S2048x256) hz, View.ld_unit_zero (S := S1x2048) hz, View.ld_unit_zero (S := S512x2048) hz]

end First

/-! ## A middle step: one update of what the step before left -/

section Middle
variable (c : Dev nD) (i : grid0.Coords)
  (arg2 : Memref sig .tc .vmem S512x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S2048x256 .bf16) (harg5 : arg5.IsWhole)
  (arg6 : Memref sig .tc .vmem S2048x256 .bf16) (harg6 : arg6.IsWhole)
  (arg7 : Memref sig .tc .vmem S1x2048 .f32) (harg7 : arg7.IsWhole)
  (arg8 : Memref sig .tc .vmem S1x2048 .f32) (harg8 : arg8.IsWhole)
  (arg9 : Memref sig .tc .vmem S1x2048 .f32) (harg9 : arg9.IsWhole)
  (arg10 : Memref sig .tc .vmem S1x2048 .f32) (harg10 : arg10.IsWhole)
  (arg11 : Memref sig .tc .vmem S512x2048 .f32) (harg11 : arg11.IsWhole)
  (arg12 : Memref sig .tc .vmem S512x2048 .f32) (harg12 : arg12.IsWhole)
  (arg13 : Memref sig .tc .vmem S512x2048 .f32) (harg13 : arg13.IsWhole)
  (arg14 : Memref sig .tc .vmem S512x2048 .f32) (harg14 : arg14.IsWhole)
  (arg15 : Memref sig .tc .vmem S512x2048 .f32) (harg15 : arg15.IsWhole)
  (arg16 : Memref sig .tc .vmem S512x2048 .f32) (harg16 : arg16.IsWhole)
  (arg17 : Memref sig .tc .vmem S512x2048 .f32) (harg17 : arg17.IsWhole)
  (hc0 : ¬cond0_0 i) (hc1 : ¬cond0_1 i)
  (x0 : Vec F S512x256 .bf16) (x1 x2 x3 x4 : Vec F S2048x256 .bf16) (x5 x6 x7 x8 : Vec F S1x2048 .f32) (x9 : Vec F S512x2048 .f32) (xs0 xs1 xs2 xs3 : Vec F S512x2048 .f32)

/-- Accumulator 0 after a middle step. -/
theorem middle0 : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 = k0_pay10 x0 xs0 x1 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x256) hz, View.ld_unit_zero (S := S2048x256) hz, View.ld_unit_zero (S := S1x2048) hz, View.ld_unit_zero (S := S512x2048) hz]

/-- Accumulator 1 after a middle step. -/
theorem middle1 : sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 = k0_pay11 x0 xs1 x2 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x256) hz, View.ld_unit_zero (S := S2048x256) hz, View.ld_unit_zero (S := S1x2048) hz, View.ld_unit_zero (S := S512x2048) hz]

/-- Accumulator 2 after a middle step. -/
theorem middle2 : sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 = k0_pay1 (k0_pay12 x0 xs2 x3) := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x256) hz, View.ld_unit_zero (S := S2048x256) hz, View.ld_unit_zero (S := S1x2048) hz, View.ld_unit_zero (S := S512x2048) hz]

/-- Accumulator 3 after a middle step. -/
theorem middle3 : sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 = k0_pay2 (k0_pay9 x0) xs3 x4 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x256) hz, View.ld_unit_zero (S := S2048x256) hz, View.ld_unit_zero (S := S1x2048) hz, View.ld_unit_zero (S := S512x2048) hz]

end Middle

/-! ## The last step: one update, then the gates -/

section Last
variable (c : Dev nD) (i : grid0.Coords)
  (arg2 : Memref sig .tc .vmem S512x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S2048x256 .bf16) (harg5 : arg5.IsWhole)
  (arg6 : Memref sig .tc .vmem S2048x256 .bf16) (harg6 : arg6.IsWhole)
  (arg7 : Memref sig .tc .vmem S1x2048 .f32) (harg7 : arg7.IsWhole)
  (arg8 : Memref sig .tc .vmem S1x2048 .f32) (harg8 : arg8.IsWhole)
  (arg9 : Memref sig .tc .vmem S1x2048 .f32) (harg9 : arg9.IsWhole)
  (arg10 : Memref sig .tc .vmem S1x2048 .f32) (harg10 : arg10.IsWhole)
  (arg11 : Memref sig .tc .vmem S512x2048 .f32) (harg11 : arg11.IsWhole)
  (arg12 : Memref sig .tc .vmem S512x2048 .f32) (harg12 : arg12.IsWhole)
  (arg13 : Memref sig .tc .vmem S512x2048 .f32) (harg13 : arg13.IsWhole)
  (arg14 : Memref sig .tc .vmem S512x2048 .f32) (harg14 : arg14.IsWhole)
  (arg15 : Memref sig .tc .vmem S512x2048 .f32) (harg15 : arg15.IsWhole)
  (arg16 : Memref sig .tc .vmem S512x2048 .f32) (harg16 : arg16.IsWhole)
  (arg17 : Memref sig .tc .vmem S512x2048 .f32) (harg17 : arg17.IsWhole)
  (hc0 : ¬cond0_0 i) (hc1 : cond0_1 i)
  (x0 : Vec F S512x256 .bf16) (x1 x2 x3 x4 : Vec F S2048x256 .bf16) (x5 x6 x7 x8 : Vec F S1x2048 .f32) (x9 : Vec F S512x2048 .f32) (xs0 xs1 xs2 xs3 : Vec F S512x2048 .f32)

/-- Accumulator 0 after the last step. -/
theorem last0 : sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 = k0_pay10 x0 xs0 x1 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x256) hz, View.ld_unit_zero (S := S2048x256) hz, View.ld_unit_zero (S := S1x2048) hz, View.ld_unit_zero (S := S512x2048) hz]

/-- Accumulator 1 after the last step. -/
theorem last1 : sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 = k0_pay11 x0 xs1 x2 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x256) hz, View.ld_unit_zero (S := S2048x256) hz, View.ld_unit_zero (S := S1x2048) hz, View.ld_unit_zero (S := S512x2048) hz]

/-- Accumulator 2 after the last step. -/
theorem last2 : sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 = k0_pay1 (k0_pay12 x0 xs2 x3) := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x256) hz, View.ld_unit_zero (S := S2048x256) hz, View.ld_unit_zero (S := S1x2048) hz, View.ld_unit_zero (S := S512x2048) hz]

/-- Accumulator 3 after the last step. -/
theorem last3 : sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3 = k0_pay2 (k0_pay9 x0) xs3 x4 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x256) hz, View.ld_unit_zero (S := S2048x256) hz, View.ld_unit_zero (S := S1x2048) hz, View.ld_unit_zero (S := S512x2048) hz]

/-- The new hidden state's block: the gate arithmetic over the four accumulators as this step has updated them. -/
theorem lastHidden : out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3
    = k0_pay4 (k0_pay10 x0 xs0 x1) x5 (k0_pay11 x0 xs1 x2) x6 (k0_pay1 (k0_pay12 x0 xs2 x3)) x7 (k0_pay2 (k0_pay9 x0) xs3 x4) x8 x9 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_C
  dsimp only
  sl_unfold_words
  rw [View.canon_unit_zero hz]
  simp only [View.readAt_eq_ld, View.readCov_unit_zero (S := S512x2048) _ hz, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x256) hz, View.ld_unit_zero (S := S2048x256) hz, View.ld_unit_zero (S := S1x2048) hz, View.ld_unit_zero (S := S512x2048) hz]

/-- The new cell state's block. -/
theorem lastCell : out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3
    = k0_pay3 (k0_pay10 x0 xs0 x1) x5 (k0_pay11 x0 xs1 x2) x6 (k0_pay2 (k0_pay9 x0) xs3 x4) x8 x9 := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 xs2 xs3)]
  unfold kernelRun0_C
  dsimp only
  sl_unfold_words
  rw [View.canon_unit_zero hz]
  simp only [View.readAt_eq_ld, View.readCov_unit_zero (S := S512x2048) _ hz, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S512x256) hz, View.ld_unit_zero (S := S2048x256) hz, View.ld_unit_zero (S := S1x2048) hz, View.ld_unit_zero (S := S512x2048) hz]

end Last

/-! ## The same at a grid point's own staging buffers and blocks -/

section AtPoint
variable (m : (ℓ : Loc nD τ sig) → Buf (Elt F) ℓ) (c : Dev nD) (t : Fin cfg0.N)

theorem first0_at (h0 : t.val % 16 = 0) (h1 : ¬t.val % 16 = 15) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)
      = k0_pay10 (iblk m c 0 t) (k0_pay5 (F := F)) (iblk m c 1 t) :=
  first0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)

theorem first1_at (h0 : t.val % 16 = 0) (h1 : ¬t.val % 16 = 15) :
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)
      = k0_pay11 (iblk m c 0 t) (k0_pay6 (F := F)) (iblk m c 2 t) :=
  first1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)

theorem first2_at (h0 : t.val % 16 = 0) (h1 : ¬t.val % 16 = 15) :
    sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)
      = k0_pay1 (k0_pay12 (iblk m c 0 t) (k0_pay7 (F := F)) (iblk m c 3 t)) :=
  first2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)

theorem first3_at (h0 : t.val % 16 = 0) (h1 : ¬t.val % 16 = 15) :
    sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)
      = k0_pay2 (k0_pay9 (iblk m c 0 t)) (k0_pay8 (F := F)) (iblk m c 4 t) :=
  first3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)

theorem middle0_at (h0 : ¬t.val % 16 = 0) (h1 : ¬t.val % 16 = 15) (a0 a1 a2 a3 : Vec F S512x2048 .f32) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) a0 a1 a2 a3
      = k0_pay10 (iblk m c 0 t) a0 (iblk m c 1 t) :=
  middle0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) a0 a1 a2 a3

theorem middle1_at (h0 : ¬t.val % 16 = 0) (h1 : ¬t.val % 16 = 15) (a0 a1 a2 a3 : Vec F S512x2048 .f32) :
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) a0 a1 a2 a3
      = k0_pay11 (iblk m c 0 t) a1 (iblk m c 2 t) :=
  middle1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) a0 a1 a2 a3

theorem middle2_at (h0 : ¬t.val % 16 = 0) (h1 : ¬t.val % 16 = 15) (a0 a1 a2 a3 : Vec F S512x2048 .f32) :
    sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) a0 a1 a2 a3
      = k0_pay1 (k0_pay12 (iblk m c 0 t) a2 (iblk m c 3 t)) :=
  middle2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) a0 a1 a2 a3

theorem middle3_at (h0 : ¬t.val % 16 = 0) (h1 : ¬t.val % 16 = 15) (a0 a1 a2 a3 : Vec F S512x2048 .f32) :
    sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) a0 a1 a2 a3
      = k0_pay2 (k0_pay9 (iblk m c 0 t)) a3 (iblk m c 4 t) :=
  middle3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) a0 a1 a2 a3

theorem last0_at (h0 : ¬t.val % 16 = 0) (h1 : t.val % 16 = 15) (a0 a1 a2 a3 : Vec F S512x2048 .f32) :
    sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) a0 a1 a2 a3
      = k0_pay10 (iblk m c 0 t) a0 (iblk m c 1 t) :=
  last0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) a0 a1 a2 a3

theorem last1_at (h0 : ¬t.val % 16 = 0) (h1 : t.val % 16 = 15) (a0 a1 a2 a3 : Vec F S512x2048 .f32) :
    sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) a0 a1 a2 a3
      = k0_pay11 (iblk m c 0 t) a1 (iblk m c 2 t) :=
  last1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) a0 a1 a2 a3

theorem last2_at (h0 : ¬t.val % 16 = 0) (h1 : t.val % 16 = 15) (a0 a1 a2 a3 : Vec F S512x2048 .f32) :
    sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) a0 a1 a2 a3
      = k0_pay1 (k0_pay12 (iblk m c 0 t) a2 (iblk m c 3 t)) :=
  last2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) a0 a1 a2 a3

theorem last3_at (h0 : ¬t.val % 16 = 0) (h1 : t.val % 16 = 15) (a0 a1 a2 a3 : Vec F S512x2048 .f32) :
    sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) a0 a1 a2 a3
      = k0_pay2 (k0_pay9 (iblk m c 0 t)) a3 (iblk m c 4 t) :=
  last3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) a0 a1 a2 a3

theorem lastHidden_at (h0 : ¬t.val % 16 = 0) (h1 : t.val % 16 = 15) (a0 a1 a2 a3 : Vec F S512x2048 .f32) :
    out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) a0 a1 a2 a3
      = k0_pay4 (k0_pay10 (iblk m c 0 t) a0 (iblk m c 1 t)) (iblk m c 5 t) (k0_pay11 (iblk m c 0 t) a1 (iblk m c 2 t)) (iblk m c 6 t) (k0_pay1 (k0_pay12 (iblk m c 0 t) a2 (iblk m c 3 t))) (iblk m c 7 t) (k0_pay2 (k0_pay9 (iblk m c 0 t)) a3 (iblk m c 4 t)) (iblk m c 8 t) (iblk m c 9 t) :=
  lastHidden c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) a0 a1 a2 a3

theorem lastCell_at (h0 : ¬t.val % 16 = 0) (h1 : t.val % 16 = 15) (a0 a1 a2 a3 : Vec F S512x2048 .f32) :
    out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) a0 a1 a2 a3
      = k0_pay3 (k0_pay10 (iblk m c 0 t) a0 (iblk m c 1 t)) (iblk m c 5 t) (k0_pay11 (iblk m c 0 t) a1 (iblk m c 2 t)) (iblk m c 6 t) (k0_pay2 (k0_pay9 (iblk m c 0 t)) a3 (iblk m c 4 t)) (iblk m c 8 t) (iblk m c 9 t) :=
  lastCell c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) a0 a1 a2 a3

end AtPoint

end Cert.KernelIdeal.Pieces

end
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.KPayIdx.lean ====
/-
  The kernel body's arithmetic, read at an index, on the extended reals.

  One accumulation step adds to the scratch, at (p, q), the entry of the joined-input block times the transposed weight
  block: the sum over the block's 256 columns k of u[p, k] * w[q, k]. The reset stores zero. At the last step of a run
  the body adds each gate's bias row to its scratch, applies the logistic function to three of them and tanh to the
  fourth, and forms the new cell state  s(a_f) * c + s(a_i) * tanh(a_c)  and the new hidden state
  s(a_o) * tanh(new cell state).
-/
import proofs.«153372_j19009525252387_1_alg».proof.Proof.Gen.KernelIdeal.Skeleton
import proofs.«153372_j19009525252387_1_alg».proof.Proof.LibPlainDot
import proofs.«153372_j19009525252387_1_alg».proof.Proof.LibRowBias
import Idealize.ShloMosaic.PureOps.Ideal.Laws
import Idealize.ShloMosaic.Lib.ValueIdx
import Idealize.ShloMosaic.Lib.Pipeline.Value

noncomputable section

open scoped BigOperators

namespace Cert.KernelIdeal.PayIdx

open Cert.KernelIdeal Cert.KernelIdeal.Gen Idealize.ShloMosaic Idealize.ShloMosaic.TcCoe Idealize.ShloMosaic.ValueIdx

/-- One step's block product at (p, q): the joined-input block's row p against the weight block's row q. -/
def blockDot (u : FVec Ideal S512x256 .bf16) (w : FVec Ideal S2048x256 .bf16) (p : Fin 512) (q : Fin 2048) : EReal :=
  ∑ k : Fin 256, u (ix2 p k) * w (ix2 q k)

/-- The block product into the zero accumulator, at (p, q): the sum over the block's columns of u[p, k] * w[q, k]. -/
theorem blockdot_apply (u : FVec Ideal S512x256 .bf16) (w : FVec Ideal S2048x256 .bf16) (p : Fin 512) (q : Fin 2048) :
    matmul (F := Ideal) dot_S512x256_S256x2048_S512x2048_1_0_0_1_n_n none u
        (transpose S256x2048 [1, 0] w transposes_S2048x256_p1_0_S256x2048) (constant (F := Ideal) S512x2048 .f32 0x00000000#32) (ix2 p q)
      = blockDot u w p q :=
  Cert.PlainDot.matmul_zero_transposed_apply (M := 512) (K := 256) (N := 2048) none u w transposes_S2048x256_p1_0_S256x2048 p q

/-- The input gate's step: scratch plus block product. -/
theorem pay10_apply (v3 : FVec Ideal S512x256 .bf16) (v5 : FVec Ideal S512x2048 .f32) (v6 : FVec Ideal S2048x256 .bf16)
    (p : Fin 512) (q : Fin 2048) :
    k0_pay10 (F := Ideal) v3 v5 v6 (ix2 p q) = v5 (ix2 p q) + blockDot v3 v6 p q := by
  unfold k0_pay10 k0_pay9
  simp only [shapeCast_self]
  exact congrArg (fun z => v5 (ix2 p q) + z) (blockdot_apply v3 v6 p q)

/-- The forget gate's step. -/
theorem pay11_apply (v3 : FVec Ideal S512x256 .bf16) (v14 : FVec Ideal S512x2048 .f32) (v15 : FVec Ideal S2048x256 .bf16)
    (p : Fin 512) (q : Fin 2048) :
    k0_pay11 (F := Ideal) v3 v14 v15 (ix2 p q) = v14 (ix2 p q) + blockDot v3 v15 p q := by
  unfold k0_pay11 k0_pay9
  simp only [shapeCast_self]
  exact congrArg (fun z => v14 (ix2 p q) + z) (blockdot_apply v3 v15 p q)

/-- The output gate's step. -/
theorem pay12_apply (v3 : FVec Ideal S512x256 .bf16) (v23 : FVec Ideal S512x2048 .f32) (v24 : FVec Ideal S2048x256 .bf16)
    (p : Fin 512) (q : Fin 2048) :
    k0_pay1 (F := Ideal) (k0_pay12 v3 v23 v24) (ix2 p q) = v23 (ix2 p q) + blockDot v3 v24 p q := by
  unfold k0_pay1 k0_pay12 k0_pay9
  simp only [shapeCast_self]
  exact congrArg (fun z => v23 (ix2 p q) + z) (blockdot_apply v3 v24 p q)

/-- The candidate's step. -/
theorem pay2_apply (v3 : FVec Ideal S512x256 .bf16) (v32 : FVec Ideal S512x2048 .f32) (v33 : FVec Ideal S2048x256 .bf16)
    (p : Fin 512) (q : Fin 2048) :
    k0_pay2 (F := Ideal) (k0_pay9 v3) v32 v33 (ix2 p q) = v32 (ix2 p q) + blockDot v3 v33 p q := by
  unfold k0_pay2 k0_pay9
  simp only [shapeCast_self]
  exact congrArg (fun z => v32 (ix2 p q) + z) (blockdot_apply v3 v33 p q)

/-- The four resets store zero. -/
theorem pay5_apply (i : S512x2048.Idx) : k0_pay5 (F := Ideal) i = 0 := by
  unfold k0_pay5; simp only [shapeCast_self]; exact Ideal.ofBits_zero_f32
theorem pay6_apply (i : S512x2048.Idx) : k0_pay6 (F := Ideal) i = 0 := by
  unfold k0_pay6; simp only [shapeCast_self]; exact Ideal.ofBits_zero_f32
theorem pay7_apply (i : S512x2048.Idx) : k0_pay7 (F := Ideal) i = 0 := by
  unfold k0_pay7; simp only [shapeCast_self]; exact Ideal.ofBits_zero_f32
theorem pay8_apply (i : S512x2048.Idx) : k0_pay8 (F := Ideal) i = 0 := by
  unfold k0_pay8; simp only [shapeCast_self]; exact Ideal.ofBits_zero_f32

/-- A bias row broadcast down the block's rows, at (p, q): the row's entry q. -/
theorem biasrow_apply (b : FVec Ideal S1x2048 .f32) (p : Fin 512) (q : Fin 2048) :
    broadcastTo S512x2048 b broadcasts_S1x2048_S512x2048 (ix2 p q) = b (ix2 (0 : Fin 1) q) :=
  Cert.RowBias.rows_apply (M := 512) (n := 2048) b broadcasts_S1x2048_S512x2048 p q

/-- The new cell state at (p, q). -/
theorem pay3_apply (v44 : FVec Ideal S512x2048 .f32) (v45 : FVec Ideal S1x2048 .f32) (v49 : FVec Ideal S512x2048 .f32)
    (v50 : FVec Ideal S1x2048 .f32) (v59 : FVec Ideal S512x2048 .f32) (v60 : FVec Ideal S1x2048 .f32)
    (v68 : FVec Ideal S512x2048 .f32) (p : Fin 512) (q : Fin 2048) :
    k0_pay3 (F := Ideal) v44 v45 v49 v50 v59 v60 v68 (ix2 p q)
      = Ideal.logistic (v49 (ix2 p q) + v50 (ix2 (0 : Fin 1) q)) * v68 (ix2 p q)
        + Ideal.logistic (v44 (ix2 p q) + v45 (ix2 (0 : Fin 1) q)) * Ideal.tanh (v59 (ix2 p q) + v60 (ix2 (0 : Fin 1) q)) := by
  unfold k0_pay3
  simp only [shapeCast_self]
  show (Ideal.logistic (v49 (ix2 p q) + broadcastTo S512x2048 v50 broadcasts_S1x2048_S512x2048 (ix2 p q)) * v68 (ix2 p q)
      + Ideal.logistic (v44 (ix2 p q) + broadcastTo S512x2048 v45 broadcasts_S1x2048_S512x2048 (ix2 p q))
        * Ideal.tanh (v59 (ix2 p q) + broadcastTo S512x2048 v60 broadcasts_S1x2048_S512x2048 (ix2 p q)) : EReal) = _
  rw [biasrow_apply v50 p q, biasrow_apply v45 p q, biasrow_apply v60 p q]

/-- The new hidden state at (p, q). -/
theorem pay4_apply (v44 : FVec Ideal S512x2048 .f32) (v45 : FVec Ideal S1x2048 .f32) (v49 : FVec Ideal S512x2048 .f32)
    (v50 : FVec Ideal S1x2048 .f32) (v54 : FVec Ideal S512x2048 .f32) (v55 : FVec Ideal S1x2048 .f32)
    (v59 : FVec Ideal S512x2048 .f32) (v60 : FVec Ideal S1x2048 .f32) (v68 : FVec Ideal S512x2048 .f32) (p : Fin 512) (q : Fin 2048) :
    k0_pay4 (F := Ideal) v44 v45 v49 v50 v54 v55 v59 v60 v68 (ix2 p q)
      = Ideal.logistic (v54 (ix2 p q) + v55 (ix2 (0 : Fin 1) q))
        * Ideal.tanh (k0_pay3 (F := Ideal) v44 v45 v49 v50 v59 v60 v68 (ix2 p q)) := by
  unfold k0_pay4
  simp only [shapeCast_self]
  show (Ideal.logistic (v54 (ix2 p q) + broadcastTo S512x2048 v55 broadcasts_S1x2048_S512x2048 (ix2 p q))
      * Ideal.tanh (k0_pay3 (F := Ideal) v44 v45 v49 v50 v59 v60 v68 (ix2 p q)) : EReal) = _
  rw [biasrow_apply v55 p q]

end Cert.KernelIdeal.PayIdx

end
-- ==== Proof.KBlocks.lean ====
/-
  The windows' blocks as entries of the whole arrays.

  The grid has 16 x 16 points; point t is (i, k) with i = t / 16 the batch tile (512 rows) and k = t % 16 the run of
  256 joined-input columns. The joined input's block at (i, k) is rows 512 i .. 512 i + 511, columns 256 k .. 256 k + 255;
  each gate's weight block at (i, k) is all 2048 rows, columns 256 k .. 256 k + 255; each bias is one whole row; the old
  cell state's block is rows 512 i .. 512 i + 511, all 2048 columns. Before the region @main joins x and h, narrows the
  joined input and the four weight matrices to bf16 (the identity on the extended reals) and lays each bias vector out
  as one row.
-/
import proofs.«153372_j19009525252387_1_alg».proof.Proof.Gen.KernelIdeal.Frame
import proofs.«153372_j19009525252387_1_alg».proof.Proof.LibRowBias
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-! ## The block indices over the grid

Point t = (i, k) = (t / 16, t % 16). The joined input's block index is (i, k); each weight matrix's is (0, k); each
bias row's is (0, 0); the old cell state's is (i, 0). Each is a statement about 256 points, decided once. -/

private theorem idx0 : ∀ t : Fin cfg0.N, win0_0.index t (0 : Fin 2) = t.val / 16 ∧ win0_0.index t (1 : Fin 2) = t.val % 16 :=
  (by decide +kernel : ∀ t : Fin grid0.N, _)
private theorem idx1 : ∀ t : Fin cfg0.N, win0_1.index t (0 : Fin 2) = 0 ∧ win0_1.index t (1 : Fin 2) = t.val % 16 :=
  (by decide +kernel : ∀ t : Fin grid0.N, _)
private theorem idx2 : ∀ t : Fin cfg0.N, win0_2.index t (0 : Fin 2) = 0 ∧ win0_2.index t (1 : Fin 2) = t.val % 16 :=
  (by decide +kernel : ∀ t : Fin grid0.N, _)
private theorem idx3 : ∀ t : Fin cfg0.N, win0_3.index t (0 : Fin 2) = 0 ∧ win0_3.index t (1 : Fin 2) = t.val % 16 :=
  (by decide +kernel : ∀ t : Fin grid0.N, _)
private theorem idx4 : ∀ t : Fin cfg0.N, win0_4.index t (0 : Fin 2) = 0 ∧ win0_4.index t (1 : Fin 2) = t.val % 16 :=
  (by decide +kernel : ∀ t : Fin grid0.N, _)
private theorem idx5 : ∀ t : Fin cfg0.N, win0_5.index t (0 : Fin 2) = 0 ∧ win0_5.index t (1 : Fin 2) = 0 :=
  (by decide +kernel : ∀ t : Fin grid0.N, _)
private theorem idx6 : ∀ t : Fin cfg0.N, win0_6.index t (0 : Fin 2) = 0 ∧ win0_6.index t (1 : Fin 2) = 0 :=
  (by decide +kernel : ∀ t : Fin grid0.N, _)
private theorem idx7 : ∀ t : Fin cfg0.N, win0_7.index t (0 : Fin 2) = 0 ∧ win0_7.index t (1 : Fin 2) = 0 :=
  (by decide +kernel : ∀ t : Fin grid0.N, _)
private theorem idx8 : ∀ t : Fin cfg0.N, win0_8.index t (0 : Fin 2) = 0 ∧ win0_8.index t (1 : Fin 2) = 0 :=
  (by decide +kernel : ∀ t : Fin grid0.N, _)
private theorem idx9 : ∀ t : Fin cfg0.N, win0_9.index t (0 : Fin 2) = t.val / 16 ∧ win0_9.index t (1 : Fin 2) = 0 :=
  (by decide +kernel : ∀ t : Fin grid0.N, _)

/-- The joined input [x, h], as @main's first operation builds it on core `c`. -/
abbrev joined (c : Dev nD) : (⟨S8192x4096, .f32⟩ : BufTy).Contents (Elt Ideal) :=
  concatenate S8192x4096 1 [⟨S8192x2048, m ((c : Thread nD τ).loc main_arg0)⟩, ⟨S8192x2048, m ((c : Thread nD τ).loc main_arg1)⟩]
    concatenates_S8192x2048_S8192x2048_S8192x4096_d1

/-! ## The arrays the kernel finds, as @main's operations leave them

The narrowed joined input is the narrowing of the joined input; each narrowed weight matrix is the narrowing of its
argument; each bias row is its bias vector laid out as one row. -/

private theorem v1_eq (c : Dev nD) : (V m c main_v1 : FVec Ideal S8192x4096 .bf16)
    = (truncf .bf16 (joined m c : FVec Ideal S8192x4096 .f32) bitsLt_bf16_f32 : FVec Ideal S8192x4096 .bf16) := by
  dsimp only [Gen.V, Gen.hostOps0]; after_results
private theorem v2_eq (c : Dev nD) : (V m c main_v2 : FVec Ideal S2048x4096 .bf16)
    = (truncf .bf16 (m ((c : Thread nD τ).loc main_arg3) : FVec Ideal S2048x4096 .f32) bitsLt_bf16_f32 : FVec Ideal S2048x4096 .bf16) := by
  dsimp only [Gen.V, Gen.hostOps0]; after_results
private theorem v3_eq (c : Dev nD) : (V m c main_v3 : FVec Ideal S2048x4096 .bf16)
    = (truncf .bf16 (m ((c : Thread nD τ).loc main_arg5) : FVec Ideal S2048x4096 .f32) bitsLt_bf16_f32 : FVec Ideal S2048x4096 .bf16) := by
  dsimp only [Gen.V, Gen.hostOps0]; after_results
private theorem v4_eq (c : Dev nD) : (V m c main_v4 : FVec Ideal S2048x4096 .bf16)
    = (truncf .bf16 (m ((c : Thread nD τ).loc main_arg9) : FVec Ideal S2048x4096 .f32) bitsLt_bf16_f32 : FVec Ideal S2048x4096 .bf16) := by
  dsimp only [Gen.V, Gen.hostOps0]; after_results
private theorem v5_eq (c : Dev nD) : (V m c main_v5 : FVec Ideal S2048x4096 .bf16)
    = (truncf .bf16 (m ((c : Thread nD τ).loc main_arg7) : FVec Ideal S2048x4096 .f32) bitsLt_bf16_f32 : FVec Ideal S2048x4096 .bf16) := by
  dsimp only [Gen.V, Gen.hostOps0]; after_results
private theorem v6_eq (c : Dev nD) : (V m c main_v6 : FVec Ideal S1x2048 .f32)
    = shapeCast S1x2048 (m ((c : Thread nD τ).loc main_arg4) : FVec Ideal S2048 .f32) shapeCasts_S2048_S1x2048 := by
  dsimp only [Gen.V, Gen.hostOps0]; after_results; rfl
private theorem v7_eq (c : Dev nD) : (V m c main_v7 : FVec Ideal S1x2048 .f32)
    = shapeCast S1x2048 (m ((c : Thread nD τ).loc main_arg6) : FVec Ideal S2048 .f32) shapeCasts_S2048_S1x2048 := by
  dsimp only [Gen.V, Gen.hostOps0]; after_results; rfl
private theorem v8_eq (c : Dev nD) : (V m c main_v8 : FVec Ideal S1x2048 .f32)
    = shapeCast S1x2048 (m ((c : Thread nD τ).loc main_arg10) : FVec Ideal S2048 .f32) shapeCasts_S2048_S1x2048 := by
  dsimp only [Gen.V, Gen.hostOps0]; after_results; rfl
private theorem v9_eq (c : Dev nD) : (V m c main_v9 : FVec Ideal S1x2048 .f32)
    = shapeCast S1x2048 (m ((c : Thread nD τ).loc main_arg8) : FVec Ideal S2048 .f32) shapeCasts_S2048_S1x2048 := by
  dsimp only [Gen.V, Gen.hostOps0]; after_results; rfl

/-! ## The blocks

An entry of a block sits in its array, on each axis, at the block index times the block's extent plus the entry's own
coordinate. Narrowing to bf16 is the identity on the extended reals, so a narrowed array's entry is its source's. -/

/-- Window 0 (the joined input, narrowed to bf16) at point t, entry (p, k): the joined input at row 512 (t / 16) + p,
    column 256 (t % 16) + k. -/
theorem comb_blk (c : Dev nD) (t : Fin cfg0.N) (p : Fin 512) (k : Fin 256) (P : Fin 8192) (K : Fin 4096)
    (hP : P.val = 512 * (t.val / 16) + p.val) (hK : K.val = 256 * (t.val % 16) + k.val) :
    (iblk m c 0 t : Vec Ideal S512x256 .bf16) (ix2 p k) = joined m c (ix2 P K) := by
  unfold iblk
  rw [View.read_apply]
  show V m c main_v1 _ = _
  refine (congrFun (v1_eq m c) _).trans ?_
  rw [truncf_apply]
  congr 1
  funext a
  apply Fin.ext
  match a with
  | ⟨0, _⟩ => show win0_0.index t 0 * 512 + 1 * p.val = P.val; rw [(idx0 t).1]; omega
  | ⟨1, _⟩ => show win0_0.index t 1 * 256 + 1 * k.val = K.val; rw [(idx0 t).2]; omega

/-- Window 1 (the input gate's weights) at point t, entry (q, k): the matrix at row q, column 256 (t % 16) + k. -/
theorem wi_blk (c : Dev nD) (t : Fin cfg0.N) (q : Fin 2048) (k : Fin 256) (K : Fin 4096) (hK : K.val = 256 * (t.val % 16) + k.val) :
    (iblk m c 1 t : Vec Ideal S2048x256 .bf16) (ix2 q k) = m ((c : Thread nD τ).loc main_arg3) (ix2 q K) := by
  unfold iblk
  rw [View.read_apply]
  show V m c main_v2 _ = _
  refine (congrFun (v2_eq m c) _).trans ?_
  rw [truncf_apply]
  congr 1
  funext a
  apply Fin.ext
  match a with
  | ⟨0, _⟩ => show win0_1.index t 0 * 2048 + 1 * q.val = q.val; rw [(idx1 t).1]; omega
  | ⟨1, _⟩ => show win0_1.index t 1 * 256 + 1 * k.val = K.val; rw [(idx1 t).2]; omega

/-- Window 2 (the forget gate's weights). -/
theorem wf_blk (c : Dev nD) (t : Fin cfg0.N) (q : Fin 2048) (k : Fin 256) (K : Fin 4096) (hK : K.val = 256 * (t.val % 16) + k.val) :
    (iblk m c 2 t : Vec Ideal S2048x256 .bf16) (ix2 q k) = m ((c : Thread nD τ).loc main_arg5) (ix2 q K) := by
  unfold iblk
  rw [View.read_apply]
  show V m c main_v3 _ = _
  refine (congrFun (v3_eq m c) _).trans ?_
  rw [truncf_apply]
  congr 1
  funext a
  apply Fin.ext
  match a with
  | ⟨0, _⟩ => show win0_2.index t 0 * 2048 + 1 * q.val = q.val; rw [(idx2 t).1]; omega
  | ⟨1, _⟩ => show win0_2.index t 1 * 256 + 1 * k.val = K.val; rw [(idx2 t).2]; omega

/-- Window 3 (the output gate's weights). -/
theorem wo_blk (c : Dev nD) (t : Fin cfg0.N) (q : Fin 2048) (k : Fin 256) (K : Fin 4096) (hK : K.val = 256 * (t.val % 16) + k.val) :
    (iblk m c 3 t : Vec Ideal S2048x256 .bf16) (ix2 q k) = m ((c : Thread nD τ).loc main_arg9) (ix2 q K) := by
  unfold iblk
  rw [View.read_apply]
  show V m c main_v4 _ = _
  refine (congrFun (v4_eq m c) _).trans ?_
  rw [truncf_apply]
  congr 1
  funext a
  apply Fin.ext
  match a with
  | ⟨0, _⟩ => show win0_3.index t 0 * 2048 + 1 * q.val = q.val; rw [(idx3 t).1]; omega
  | ⟨1, _⟩ => show win0_3.index t 1 * 256 + 1 * k.val = K.val; rw [(idx3 t).2]; omega

/-- Window 4 (the candidate's weights). -/
theorem wc_blk (c : Dev nD) (t : Fin cfg0.N) (q : Fin 2048) (k : Fin 256) (K : Fin 4096) (hK : K.val = 256 * (t.val % 16) + k.val) :
    (iblk m c 4 t : Vec Ideal S2048x256 .bf16) (ix2 q k) = m ((c : Thread nD τ).loc main_arg7) (ix2 q K) := by
  unfold iblk
  rw [View.read_apply]
  show V m c main_v5 _ = _
  refine (congrFun (v5_eq m c) _).trans ?_
  rw [truncf_apply]
  congr 1
  funext a
  apply Fin.ext
  match a with
  | ⟨0, _⟩ => show win0_4.index t 0 * 2048 + 1 * q.val = q.val; rw [(idx4 t).1]; omega
  | ⟨1, _⟩ => show win0_4.index t 1 * 256 + 1 * k.val = K.val; rw [(idx4 t).2]; omega

/-- Window 5 (the input gate's bias as one row) at any point: entry (0, q) is the bias vector's entry q. -/
theorem bi_blk (c : Dev nD) (t : Fin cfg0.N) (q : Fin 2048) :
    (iblk m c 5 t : Vec Ideal S1x2048 .f32) (ix2 (0 : Fin 1) q) = m ((c : Thread nD τ).loc main_arg4) (ix1 q) := by
  unfold iblk
  rw [View.read_apply]
  show V m c main_v6 _ = _
  refine (congrFun (v6_eq m c) _).trans ?_
  refine Eq.trans ?_ (Cert.RowBias.ofVec_apply (m ((c : Thread nD τ).loc main_arg4)) shapeCasts_S2048_S1x2048 q)
  congr 1
  funext a
  apply Fin.ext
  match a with
  | ⟨0, _⟩ => show win0_5.index t 0 * 1 + 1 * 0 = 0; rw [(idx5 t).1]
  | ⟨1, _⟩ => show win0_5.index t 1 * 2048 + 1 * q.val = q.val; rw [(idx5 t).2]; omega

/-- Window 6 (the forget gate's bias). -/
theorem bf_blk (c : Dev nD) (t : Fin cfg0.N) (q : Fin 2048) :
    (iblk m c 6 t : Vec Ideal S1x2048 .f32) (ix2 (0 : Fin 1) q) = m ((c : Thread nD τ).loc main_arg6) (ix1 q) := by
  unfold iblk
  rw [View.read_apply]
  show V m c main_v7 _ = _
  refine (congrFun (v7_eq m c) _).trans ?_
  refine Eq.trans ?_ (Cert.RowBias.ofVec_apply (m ((c : Thread nD τ).loc main_arg6)) shapeCasts_S2048_S1x2048 q)
  congr 1
  funext a
  apply Fin.ext
  match a with
  | ⟨0, _⟩ => show win0_6.index t 0 * 1 + 1 * 0 = 0; rw [(idx6 t).1]
  | ⟨1, _⟩ => show win0_6.index t 1 * 2048 + 1 * q.val = q.val; rw [(idx6 t).2]; omega

/-- Window 7 (the output gate's bias). -/
theorem bo_blk (c : Dev nD) (t : Fin cfg0.N) (q : Fin 2048) :
    (iblk m c 7 t : Vec Ideal S1x2048 .f32) (ix2 (0 : Fin 1) q) = m ((c : Thread nD τ).loc main_arg10) (ix1 q) := by
  unfold iblk
  rw [View.read_apply]
  show V m c main_v8 _ = _
  refine (congrFun (v8_eq m c) _).trans ?_
  refine Eq.trans ?_ (Cert.RowBias.ofVec_apply (m ((c : Thread nD τ).loc main_arg10)) shapeCasts_S2048_S1x2048 q)
  congr 1
  funext a
  apply Fin.ext
  match a with
  | ⟨0, _⟩ => show win0_7.index t 0 * 1 + 1 * 0 = 0; rw [(idx7 t).1]
  | ⟨1, _⟩ => show win0_7.index t 1 * 2048 + 1 * q.val = q.val; rw [(idx7 t).2]; omega

/-- Window 8 (the candidate's bias). -/
theorem bc_blk (c : Dev nD) (t : Fin cfg0.N) (q : Fin 2048) :
    (iblk m c 8 t : Vec Ideal S1x2048 .f32) (ix2 (0 : Fin 1) q) = m ((c : Thread nD τ).loc main_arg8) (ix1 q) := by
  unfold iblk
  rw [View.read_apply]
  show V m c main_v9 _ = _
  refine (congrFun (v9_eq m c) _).trans ?_
  refine Eq.trans ?_ (Cert.RowBias.ofVec_apply (m ((c : Thread nD τ).loc main_arg8)) shapeCasts_S2048_S1x2048 q)
  congr 1
  funext a
  apply Fin.ext
  match a with
  | ⟨0, _⟩ => show win0_8.index t 0 * 1 + 1 * 0 = 0; rw [(idx8 t).1]
  | ⟨1, _⟩ => show win0_8.index t 1 * 2048 + 1 * q.val = q.val; rw [(idx8 t).2]; omega

/-- Window 9 (the old cell state) at point t, entry (p, q): the array at row 512 (t / 16) + p, column q. -/
theorem c_blk (c : Dev nD) (t : Fin cfg0.N) (p : Fin 512) (q : Fin 2048) (P : Fin 8192) (hP : P.val = 512 * (t.val / 16) + p.val) :
    (iblk m c 9 t : Vec Ideal S512x2048 .f32) (ix2 p q) = m ((c : Thread nD τ).loc main_arg2) (ix2 P q) := by
  unfold iblk
  rw [View.read_apply]
  show V m c main_arg2 _ = _
  rw [V_main_arg2]
  congr 1
  funext a
  apply Fin.ext
  match a with
  | ⟨0, _⟩ => show win0_9.index t 0 * 512 + 1 * p.val = P.val; rw [(idx9 t).1]; omega
  | ⟨1, _⟩ => show win0_9.index t 1 * 2048 + 1 * q.val = q.val; rw [(idx9 t).2]; omega

end Cert.KernelIdeal.Blocks

end
-- ==== Proof.LstmSpec.lean ====
/-
  The LSTM cell as ONE function of its arguments, index by index, on the extended reals.

  With `u = [x, h]` the joined input row (4096 entries) and, per gate, a weight matrix `W` (one row of 4096 per hidden
  unit) and a bias `b`, the gate's pre-activation at batch row `p` and hidden unit `q` is
      a(p, q) = (sum over k of u[p, k] * W[q, k]) + b[q].
  The new cell state is  c'(p, q) = s(a_f) * c[p, q] + s(a_i) * tanh(a_c)  and the new hidden state is
  h'(p, q) = s(a_o) * tanh(c'(p, q)),  where s is the logistic function  s(t) = 1 / (1 + exp(-t)).

  Two facts join the two programs to this function. The sum over the 4096 joined entries may be taken as sixteen
  consecutive runs of 256 entries each: addition on the extended reals is commutative and associative, so no finiteness is
  needed. And the logistic function written out as the quotient  1 / (1 + exp(-t))  with the literal one IS the
  logistic function, at every extended real, the infinities included.
-/
import Idealize.ShloMosaic.PureOps.Ideal
import Idealize.ShloMosaic.PureOps.IdealRules
import Idealize.ShloMosaic.Lib.ValueIdx

noncomputable section

open scoped BigOperators

namespace Cert.LstmSpec

open Idealize.ShloMosaic Idealize.ShloMosaic.ValueIdx

/-- One gate's pre-activation at batch row `p` and hidden unit `q`: the joined input row against the unit's weight row,
    plus the unit's bias. -/
def gate (u : FVec Ideal ⟨2, ![8192, 4096]⟩ .f32) (W : FVec Ideal ⟨2, ![2048, 4096]⟩ .f32) (b : FVec Ideal ⟨1, ![2048]⟩ .f32)
    (p : Fin 8192) (q : Fin 2048) : EReal :=
  (∑ k : Fin 4096, u (ix2 p k) * W (ix2 q k)) + b (ix1 q)

/-- The new cell state at `(p, q)`: the forget gate times the old cell state plus the input gate times the candidate. -/
def cellAt (u : FVec Ideal ⟨2, ![8192, 4096]⟩ .f32)
    (Wi Wf Wc : FVec Ideal ⟨2, ![2048, 4096]⟩ .f32) (bi bf bc : FVec Ideal ⟨1, ![2048]⟩ .f32)
    (c : FVec Ideal ⟨2, ![8192, 2048]⟩ .f32) (p : Fin 8192) (q : Fin 2048) : EReal :=
  Ideal.logistic (gate u Wf bf p q) * c (ix2 p q) + Ideal.logistic (gate u Wi bi p q) * Ideal.tanh (gate u Wc bc p q)

/-- The new hidden state at `(p, q)`: the output gate times the hyperbolic tangent of the new cell state. -/
def hiddenAt (u : FVec Ideal ⟨2, ![8192, 4096]⟩ .f32)
    (Wi Wf Wo Wc : FVec Ideal ⟨2, ![2048, 4096]⟩ .f32) (bi bf bo bc : FVec Ideal ⟨1, ![2048]⟩ .f32)
    (c : FVec Ideal ⟨2, ![8192, 2048]⟩ .f32) (p : Fin 8192) (q : Fin 2048) : EReal :=
  Ideal.logistic (gate u Wo bo p q) * Ideal.tanh (cellAt u Wi Wf Wc bi bf bc c p q)

/-- The new cell state as an array. -/
def cellArr (u : FVec Ideal ⟨2, ![8192, 4096]⟩ .f32)
    (Wi Wf Wc : FVec Ideal ⟨2, ![2048, 4096]⟩ .f32) (bi bf bc : FVec Ideal ⟨1, ![2048]⟩ .f32)
    (c : FVec Ideal ⟨2, ![8192, 2048]⟩ .f32) : FVec Ideal ⟨2, ![8192, 2048]⟩ .f32 :=
  fun j => cellAt u Wi Wf Wc bi bf bc c (j 0) (j 1)

/-- The new hidden state as an array. -/
def hiddenArr (u : FVec Ideal ⟨2, ![8192, 4096]⟩ .f32)
    (Wi Wf Wo Wc : FVec Ideal ⟨2, ![2048, 4096]⟩ .f32) (bi bf bo bc : FVec Ideal ⟨1, ![2048]⟩ .f32)
    (c : FVec Ideal ⟨2, ![8192, 2048]⟩ .f32) : FVec Ideal ⟨2, ![8192, 2048]⟩ .f32 :=
  fun j => hiddenAt u Wi Wf Wo Wc bi bf bo bc c (j 0) (j 1)

theorem cellArr_apply (u : FVec Ideal ⟨2, ![8192, 4096]⟩ .f32)
    (Wi Wf Wc : FVec Ideal ⟨2, ![2048, 4096]⟩ .f32) (bi bf bc : FVec Ideal ⟨1, ![2048]⟩ .f32)
    (c : FVec Ideal ⟨2, ![8192, 2048]⟩ .f32) (p : Fin 8192) (q : Fin 2048) :
    cellArr u Wi Wf Wc bi bf bc c (ix2 p q) = cellAt u Wi Wf Wc bi bf bc c p q := rfl

theorem hiddenArr_apply (u : FVec Ideal ⟨2, ![8192, 4096]⟩ .f32)
    (Wi Wf Wo Wc : FVec Ideal ⟨2, ![2048, 4096]⟩ .f32) (bi bf bo bc : FVec Ideal ⟨1, ![2048]⟩ .f32)
    (c : FVec Ideal ⟨2, ![8192, 2048]⟩ .f32) (p : Fin 8192) (q : Fin 2048) :
    hiddenArr u Wi Wf Wo Wc bi bf bo bc c (ix2 p q) = hiddenAt u Wi Wf Wo Wc bi bf bo bc c p q := rfl

/-! ## Sixteen runs of 256 make the whole sum -/

/-- A sum over `m * n` consecutive naturals is the sum, over `m` runs, of each run's `n` terms. Only commutativity and
    associativity of the addition are used. -/
theorem sum_range_runs {β : Type*} [AddCommMonoid β] (f : ℕ → β) (n : ℕ) :
    ∀ m : ℕ, (∑ s ∈ Finset.range m, ∑ j ∈ Finset.range n, f (n * s + j)) = ∑ k ∈ Finset.range (n * m), f k
  | 0 => by rw [Finset.sum_range_zero, Nat.mul_zero, Finset.sum_range_zero]
  | m + 1 => by
    rw [Finset.sum_range_succ, sum_range_runs f n m, Nat.mul_succ, Finset.sum_range_add]

/-- The same over the literal extents: a function of an index below 4096, summed as sixteen runs of 256. The run's
    number ranges over the naturals below sixteen, as a fold over grid points leaves it. -/
theorem sum_sixteen_runs {β : Type*} [AddCommMonoid β] (g : Fin 4096 → β) :
    (∑ s ∈ Finset.range 16, ∑ j : Fin 256,
        (if h : 256 * s + j.val < 4096 then g ⟨256 * s + j.val, h⟩ else 0)) = ∑ k : Fin 4096, g k := by
  have e := sum_range_runs (fun k => if h : k < 4096 then g ⟨k, h⟩ else 0) 256 16
  rw [show 256 * 16 = 4096 from rfl] at e
  rw [← Fin.sum_univ_eq_sum_range (fun k => if h : k < 4096 then g ⟨k, h⟩ else (0 : β)) 4096] at e
  rw [show (∑ k : Fin 4096, g k) = ∑ k : Fin 4096, (if h : k.val < 4096 then g ⟨k.val, h⟩ else 0) from
    Finset.sum_congr rfl fun k _ => by rw [dif_pos k.isLt]]
  rw [← e]
  refine Finset.sum_congr rfl fun s _ => ?_
  exact Fin.sum_univ_eq_sum_range (fun j => if h : 256 * s + j < 4096 then g ⟨256 * s + j, h⟩ else (0 : β)) 256

/-! ## The logistic function written out -/

/-- The f32 literal one denotes the extended real `1`. -/
theorem one_f32 : Ideal.ofBits .f32 0x3F800000#32 = 1 := IdealRules.sign_bit.ideal_onePat .f32

/-- The quotient `1 / (1 + exp(-t))` over the literal one is the logistic function, at every extended real. -/
theorem logistic_spelled (t : EReal) :
    Ideal.div (Ideal.ofBits .f32 0x3F800000#32) (Ideal.ofBits .f32 0x3F800000#32 + Ideal.exp (-t)) = Ideal.logistic t := by
  rw [one_f32]; rfl

end Cert.LstmSpec

end
-- ==== Proof.KScratch.lean ====
/-
  The four gate accumulators at the end of a run of sixteen steps.

  Each accumulator is carried from step to step. The first step of a run leaves zero plus that step's block product;
  each later step adds its own block product. So after the run's last step the accumulator at (p, q) is zero plus the
  sum over the sixteen steps s of the sum over the 256 columns k of  u[P, 256 s + k] * W[q, 256 s + k],  with P the row
  of the whole joined input that the batch tile's row p is. Sixteen runs of 256 columns are the 4096 columns, so this is
  the whole row product  sum over k < 4096 of u[P, k] * W[q, k].  Only commutativity and associativity of the sum and
  0 + x = x are used.
-/
import proofs.«153372_j19009525252387_1_alg».proof.Proof.Gen.KernelIdeal.Value
import proofs.«153372_j19009525252387_1_alg».proof.Proof.KPieces
import proofs.«153372_j19009525252387_1_alg».proof.Proof.KPayIdx
import proofs.«153372_j19009525252387_1_alg».proof.Proof.KBlocks
import proofs.«153372_j19009525252387_1_alg».proof.Proof.LstmSpec
import Idealize.ShloMosaic.Lib.Pipeline.Value
import Idealize.ShloMosaic.Lib.ValueIdx

set_option maxRecDepth 16384

noncomputable section

open scoped BigOperators

namespace Cert.KernelIdeal.Scratch

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-! ## Accumulator 0 (the input gate) -/

/-- Step n's addend to accumulator 0 at (p, q): the entry of the step's block product (zero past the grid). -/
def addend0 (c : Dev nD) (n : ℕ) (p : Fin 512) (q : Fin 2048) : EReal :=
  if h : n < cfg0.N then PayIdx.blockDot (iblk m c 0 ⟨n, h⟩) (iblk m c 1 ⟨n, h⟩) p q else 0

/-- The first step of a run leaves zero plus its addend, whatever the accumulator held. -/
theorem first0_step (c : Dev nD) (n : ℕ) (hb : n < cfg0.N) (h0 : n % 16 = 0) (acc : Vec Ideal S512x2048 .f32)
    (p : Fin 512) (q : Fin 2048) :
    Value.scAt0_0 m c n hb acc (ix2 p q) = 0 + addend0 m c n p q := by
  have h1 : ¬n % 16 = 15 := by omega
  unfold Value.scAt0_0
  rw [dif_pos h0, dif_neg h1]
  refine (congrFun (Pieces.first0_at (F := Ideal) m c ⟨n, hb⟩ h0 h1) (ix2 p q)).trans ?_
  rw [PayIdx.pay10_apply (iblk m c 0 ⟨n, hb⟩) (k0_pay5 (F := Ideal)) (iblk m c 1 ⟨n, hb⟩) p q, PayIdx.pay5_apply]
  unfold addend0
  rw [dif_pos hb]

/-- A later step adds its addend to what the step before left. -/
theorem later0_step (c : Dev nD) (n : ℕ) (hb : n < cfg0.N) (h0 : ¬n % 16 = 0) (acc : Vec Ideal S512x2048 .f32)
    (p : Fin 512) (q : Fin 2048) :
    Value.scAt0_0 m c n hb acc (ix2 p q) = acc (ix2 p q) + addend0 m c n p q := by
  unfold Value.scAt0_0
  rw [dif_neg h0]
  by_cases h1 : n % 16 = 15
  · rw [dif_pos h1]
    refine (congrFun (Pieces.last0_at (F := Ideal) m c ⟨n, hb⟩ h0 h1 acc _ _ _) (ix2 p q)).trans ?_
    rw [PayIdx.pay10_apply (iblk m c 0 ⟨n, hb⟩) acc (iblk m c 1 ⟨n, hb⟩) p q]
    unfold addend0
    rw [dif_pos hb]
  · rw [dif_neg h1]
    refine (congrFun (Pieces.middle0_at (F := Ideal) m c ⟨n, hb⟩ h0 h1 acc _ _ _) (ix2 p q)).trans ?_
    rw [PayIdx.pay10_apply (iblk m c 0 ⟨n, hb⟩) acc (iblk m c 1 ⟨n, hb⟩) p q]
    unfold addend0
    rw [dif_pos hb]

/-- After the last step of a run, accumulator 0 at (p, q) is the whole row product of the joined input's row P with
    the gate's weight row q. -/
theorem full0 (c : Dev nD) (t : Fin cfg0.N) (ht : t.val % 16 = 15) (p : Fin 512) (q : Fin 2048) (P : Fin 8192)
    (hP : P.val = 512 * (t.val / 16) + p.val) :
    ((outsAt0 m c t.val t.isLt).2.2.1 : FVec Ideal S512x2048 .f32) (ix2 p q)
      = ∑ k : Fin 4096, Blocks.joined m c (ix2 P k) * m ((c : Thread nD τ).loc main_arg3) (ix2 q k) := by
  have hN : cfg0.N = 256 := N_0
  have htN : t.val < 256 := lt_of_lt_of_eq t.isLt hN
  rw [Value.soutsAt0_0_eq m c t]
  have key := Pipeline.accAt_add_apply
    (a := fun n h => Value.scAt0_0 m c n h (VS0_0.read (Elt Ideal) VS0_0.junk))
    (g := Value.scAt0_0 m c) (Z := fun _ => (0 : EReal))
    (M := fun n i => addend0 m c n ⟨(i 0).val, idx2_lt0 i⟩ ⟨(i 1).val, idx2_lt1 i⟩)
    (b := 16 * (t.val / 16)) (e := 15)
    (fun h i => by
      obtain ⟨p', q', rfl⟩ : ∃ (p' : Fin 512) (q' : Fin 2048), i = ix2 p' q' := ⟨i 0, i 1, eq_ix2 i⟩
      exact first0_step m c _ h (by omega) _ p' q')
    (fun n h acc i hlo hhi => by
      obtain ⟨p', q', rfl⟩ : ∃ (p' : Fin 512) (q' : Fin 2048), i = ix2 p' q' := ⟨i 0, i 1, eq_ix2 i⟩
      exact later0_step m c n h (by omega) acc p' q')
    (t.val % 16) (by omega) (by have h1 := t.isLt; have h2 := Nat.div_add_mod t.val 16; omega) (ix2 p q)
  have e16 : t.val % 16 + 1 = 16 := by omega
  rw [key, zero_add, e16]
  show (∑ s ∈ Finset.range 16, addend0 m c (16 * (t.val / 16) + s) p q) = _
  rw [← Cert.LstmSpec.sum_sixteen_runs (fun k => Blocks.joined m c (ix2 P k) * m ((c : Thread nD τ).loc main_arg3) (ix2 q k))]
  refine Finset.sum_congr rfl fun s hs => ?_
  have hs' : s < 16 := Finset.mem_range.mp hs
  have hpt : 16 * (t.val / 16) + s < cfg0.N := by omega
  unfold addend0
  rw [dif_pos hpt]
  unfold PayIdx.blockDot
  refine Finset.sum_congr rfl fun k _ => ?_
  have hk : 256 * s + k.val < 4096 := by have := k.isLt; omega
  rw [dif_pos hk]
  rw [Blocks.comb_blk m c ⟨16 * (t.val / 16) + s, hpt⟩ p k P ⟨256 * s + k.val, hk⟩
      (by show P.val = 512 * ((16 * (t.val / 16) + s) / 16) + p.val; omega)
      (by show 256 * s + k.val = 256 * ((16 * (t.val / 16) + s) % 16) + k.val; omega),
    Blocks.wi_blk m c ⟨16 * (t.val / 16) + s, hpt⟩ q k ⟨256 * s + k.val, hk⟩
      (by show 256 * s + k.val = 256 * ((16 * (t.val / 16) + s) % 16) + k.val; omega)]

/-- At a run's last step the accumulator is that step's own update of what the step before left. -/
theorem cur0 (c : Dev nD) (t : Fin cfg0.N) (h0 : ¬t.val % 16 = 0) (h1 : t.val % 16 = 15) :
    (outsAt0 m c t.val t.isLt).2.2.1 = k0_pay10 (iblk m c 0 t) (outsAt0 m c (t.val - 1) (Nat.lt_of_le_of_lt (Nat.sub_le _ _) t.isLt)).2.2.1 (iblk m c 1 t) := by
  rw [outsAt0_C m c t h0 h1]
  dsimp only
  exact Pieces.last0_at (F := Ideal) m c t h0 h1 _ _ _ _

/-! ## Accumulator 1 (the forget gate) -/

/-- Step n's addend to accumulator 1 at (p, q): the entry of the step's block product (zero past the grid). -/
def addend1 (c : Dev nD) (n : ℕ) (p : Fin 512) (q : Fin 2048) : EReal :=
  if h : n < cfg0.N then PayIdx.blockDot (iblk m c 0 ⟨n, h⟩) (iblk m c 2 ⟨n, h⟩) p q else 0

/-- The first step of a run leaves zero plus its addend, whatever the accumulator held. -/
theorem first1_step (c : Dev nD) (n : ℕ) (hb : n < cfg0.N) (h0 : n % 16 = 0) (acc : Vec Ideal S512x2048 .f32)
    (p : Fin 512) (q : Fin 2048) :
    Value.scAt0_1 m c n hb acc (ix2 p q) = 0 + addend1 m c n p q := by
  have h1 : ¬n % 16 = 15 := by omega
  unfold Value.scAt0_1
  rw [dif_pos h0, dif_neg h1]
  refine (congrFun (Pieces.first1_at (F := Ideal) m c ⟨n, hb⟩ h0 h1) (ix2 p q)).trans ?_
  rw [PayIdx.pay11_apply (iblk m c 0 ⟨n, hb⟩) (k0_pay6 (F := Ideal)) (iblk m c 2 ⟨n, hb⟩) p q, PayIdx.pay6_apply]
  unfold addend1
  rw [dif_pos hb]

/-- A later step adds its addend to what the step before left. -/
theorem later1_step (c : Dev nD) (n : ℕ) (hb : n < cfg0.N) (h0 : ¬n % 16 = 0) (acc : Vec Ideal S512x2048 .f32)
    (p : Fin 512) (q : Fin 2048) :
    Value.scAt0_1 m c n hb acc (ix2 p q) = acc (ix2 p q) + addend1 m c n p q := by
  unfold Value.scAt0_1
  rw [dif_neg h0]
  by_cases h1 : n % 16 = 15
  · rw [dif_pos h1]
    refine (congrFun (Pieces.last1_at (F := Ideal) m c ⟨n, hb⟩ h0 h1 _ acc _ _) (ix2 p q)).trans ?_
    rw [PayIdx.pay11_apply (iblk m c 0 ⟨n, hb⟩) acc (iblk m c 2 ⟨n, hb⟩) p q]
    unfold addend1
    rw [dif_pos hb]
  · rw [dif_neg h1]
    refine (congrFun (Pieces.middle1_at (F := Ideal) m c ⟨n, hb⟩ h0 h1 _ acc _ _) (ix2 p q)).trans ?_
    rw [PayIdx.pay11_apply (iblk m c 0 ⟨n, hb⟩) acc (iblk m c 2 ⟨n, hb⟩) p q]
    unfold addend1
    rw [dif_pos hb]

/-- After the last step of a run, accumulator 1 at (p, q) is the whole row product of the joined input's row P with
    the gate's weight row q. -/
theorem full1 (c : Dev nD) (t : Fin cfg0.N) (ht : t.val % 16 = 15) (p : Fin 512) (q : Fin 2048) (P : Fin 8192)
    (hP : P.val = 512 * (t.val / 16) + p.val) :
    ((outsAt0 m c t.val t.isLt).2.2.2.1 : FVec Ideal S512x2048 .f32) (ix2 p q)
      = ∑ k : Fin 4096, Blocks.joined m c (ix2 P k) * m ((c : Thread nD τ).loc main_arg5) (ix2 q k) := by
  have hN : cfg0.N = 256 := N_0
  have htN : t.val < 256 := lt_of_lt_of_eq t.isLt hN
  rw [Value.soutsAt0_1_eq m c t]
  have key := Pipeline.accAt_add_apply
    (a := fun n h => Value.scAt0_1 m c n h (VS0_1.read (Elt Ideal) VS0_1.junk))
    (g := Value.scAt0_1 m c) (Z := fun _ => (0 : EReal))
    (M := fun n i => addend1 m c n ⟨(i 0).val, idx2_lt0 i⟩ ⟨(i 1).val, idx2_lt1 i⟩)
    (b := 16 * (t.val / 16)) (e := 15)
    (fun h i => by
      obtain ⟨p', q', rfl⟩ : ∃ (p' : Fin 512) (q' : Fin 2048), i = ix2 p' q' := ⟨i 0, i 1, eq_ix2 i⟩
      exact first1_step m c _ h (by omega) _ p' q')
    (fun n h acc i hlo hhi => by
      obtain ⟨p', q', rfl⟩ : ∃ (p' : Fin 512) (q' : Fin 2048), i = ix2 p' q' := ⟨i 0, i 1, eq_ix2 i⟩
      exact later1_step m c n h (by omega) acc p' q')
    (t.val % 16) (by omega) (by have h1 := t.isLt; have h2 := Nat.div_add_mod t.val 16; omega) (ix2 p q)
  have e16 : t.val % 16 + 1 = 16 := by omega
  rw [key, zero_add, e16]
  show (∑ s ∈ Finset.range 16, addend1 m c (16 * (t.val / 16) + s) p q) = _
  rw [← Cert.LstmSpec.sum_sixteen_runs (fun k => Blocks.joined m c (ix2 P k) * m ((c : Thread nD τ).loc main_arg5) (ix2 q k))]
  refine Finset.sum_congr rfl fun s hs => ?_
  have hs' : s < 16 := Finset.mem_range.mp hs
  have hpt : 16 * (t.val / 16) + s < cfg0.N := by omega
  unfold addend1
  rw [dif_pos hpt]
  unfold PayIdx.blockDot
  refine Finset.sum_congr rfl fun k _ => ?_
  have hk : 256 * s + k.val < 4096 := by have := k.isLt; omega
  rw [dif_pos hk]
  rw [Blocks.comb_blk m c ⟨16 * (t.val / 16) + s, hpt⟩ p k P ⟨256 * s + k.val, hk⟩
      (by show P.val = 512 * ((16 * (t.val / 16) + s) / 16) + p.val; omega)
      (by show 256 * s + k.val = 256 * ((16 * (t.val / 16) + s) % 16) + k.val; omega),
    Blocks.wf_blk m c ⟨16 * (t.val / 16) + s, hpt⟩ q k ⟨256 * s + k.val, hk⟩
      (by show 256 * s + k.val = 256 * ((16 * (t.val / 16) + s) % 16) + k.val; omega)]

/-- At a run's last step the accumulator is that step's own update of what the step before left. -/
theorem cur1 (c : Dev nD) (t : Fin cfg0.N) (h0 : ¬t.val % 16 = 0) (h1 : t.val % 16 = 15) :
    (outsAt0 m c t.val t.isLt).2.2.2.1 = k0_pay11 (iblk m c 0 t) (outsAt0 m c (t.val - 1) (Nat.lt_of_le_of_lt (Nat.sub_le _ _) t.isLt)).2.2.2.1 (iblk m c 2 t) := by
  rw [outsAt0_C m c t h0 h1]
  dsimp only
  exact Pieces.last1_at (F := Ideal) m c t h0 h1 _ _ _ _

/-! ## Accumulator 2 (the output gate) -/

/-- Step n's addend to accumulator 2 at (p, q): the entry of the step's block product (zero past the grid). -/
def addend2 (c : Dev nD) (n : ℕ) (p : Fin 512) (q : Fin 2048) : EReal :=
  if h : n < cfg0.N then PayIdx.blockDot (iblk m c 0 ⟨n, h⟩) (iblk m c 3 ⟨n, h⟩) p q else 0

/-- The first step of a run leaves zero plus its addend, whatever the accumulator held. -/
theorem first2_step (c : Dev nD) (n : ℕ) (hb : n < cfg0.N) (h0 : n % 16 = 0) (acc : Vec Ideal S512x2048 .f32)
    (p : Fin 512) (q : Fin 2048) :
    Value.scAt0_2 m c n hb acc (ix2 p q) = 0 + addend2 m c n p q := by
  have h1 : ¬n % 16 = 15 := by omega
  unfold Value.scAt0_2
  rw [dif_pos h0, dif_neg h1]
  refine (congrFun (Pieces.first2_at (F := Ideal) m c ⟨n, hb⟩ h0 h1) (ix2 p q)).trans ?_
  rw [PayIdx.pay12_apply (iblk m c 0 ⟨n, hb⟩) (k0_pay7 (F := Ideal)) (iblk m c 3 ⟨n, hb⟩) p q, PayIdx.pay7_apply]
  unfold addend2
  rw [dif_pos hb]

/-- A later step adds its addend to what the step before left. -/
theorem later2_step (c : Dev nD) (n : ℕ) (hb : n < cfg0.N) (h0 : ¬n % 16 = 0) (acc : Vec Ideal S512x2048 .f32)
    (p : Fin 512) (q : Fin 2048) :
    Value.scAt0_2 m c n hb acc (ix2 p q) = acc (ix2 p q) + addend2 m c n p q := by
  unfold Value.scAt0_2
  rw [dif_neg h0]
  by_cases h1 : n % 16 = 15
  · rw [dif_pos h1]
    refine (congrFun (Pieces.last2_at (F := Ideal) m c ⟨n, hb⟩ h0 h1 _ _ acc _) (ix2 p q)).trans ?_
    rw [PayIdx.pay12_apply (iblk m c 0 ⟨n, hb⟩) acc (iblk m c 3 ⟨n, hb⟩) p q]
    unfold addend2
    rw [dif_pos hb]
  · rw [dif_neg h1]
    refine (congrFun (Pieces.middle2_at (F := Ideal) m c ⟨n, hb⟩ h0 h1 _ _ acc _) (ix2 p q)).trans ?_
    rw [PayIdx.pay12_apply (iblk m c 0 ⟨n, hb⟩) acc (iblk m c 3 ⟨n, hb⟩) p q]
    unfold addend2
    rw [dif_pos hb]

/-- After the last step of a run, accumulator 2 at (p, q) is the whole row product of the joined input's row P with
    the gate's weight row q. -/
theorem full2 (c : Dev nD) (t : Fin cfg0.N) (ht : t.val % 16 = 15) (p : Fin 512) (q : Fin 2048) (P : Fin 8192)
    (hP : P.val = 512 * (t.val / 16) + p.val) :
    ((outsAt0 m c t.val t.isLt).2.2.2.2.1 : FVec Ideal S512x2048 .f32) (ix2 p q)
      = ∑ k : Fin 4096, Blocks.joined m c (ix2 P k) * m ((c : Thread nD τ).loc main_arg9) (ix2 q k) := by
  have hN : cfg0.N = 256 := N_0
  have htN : t.val < 256 := lt_of_lt_of_eq t.isLt hN
  rw [Value.soutsAt0_2_eq m c t]
  have key := Pipeline.accAt_add_apply
    (a := fun n h => Value.scAt0_2 m c n h (VS0_2.read (Elt Ideal) VS0_2.junk))
    (g := Value.scAt0_2 m c) (Z := fun _ => (0 : EReal))
    (M := fun n i => addend2 m c n ⟨(i 0).val, idx2_lt0 i⟩ ⟨(i 1).val, idx2_lt1 i⟩)
    (b := 16 * (t.val / 16)) (e := 15)
    (fun h i => by
      obtain ⟨p', q', rfl⟩ : ∃ (p' : Fin 512) (q' : Fin 2048), i = ix2 p' q' := ⟨i 0, i 1, eq_ix2 i⟩
      exact first2_step m c _ h (by omega) _ p' q')
    (fun n h acc i hlo hhi => by
      obtain ⟨p', q', rfl⟩ : ∃ (p' : Fin 512) (q' : Fin 2048), i = ix2 p' q' := ⟨i 0, i 1, eq_ix2 i⟩
      exact later2_step m c n h (by omega) acc p' q')
    (t.val % 16) (by omega) (by have h1 := t.isLt; have h2 := Nat.div_add_mod t.val 16; omega) (ix2 p q)
  have e16 : t.val % 16 + 1 = 16 := by omega
  rw [key, zero_add, e16]
  show (∑ s ∈ Finset.range 16, addend2 m c (16 * (t.val / 16) + s) p q) = _
  rw [← Cert.LstmSpec.sum_sixteen_runs (fun k => Blocks.joined m c (ix2 P k) * m ((c : Thread nD τ).loc main_arg9) (ix2 q k))]
  refine Finset.sum_congr rfl fun s hs => ?_
  have hs' : s < 16 := Finset.mem_range.mp hs
  have hpt : 16 * (t.val / 16) + s < cfg0.N := by omega
  unfold addend2
  rw [dif_pos hpt]
  unfold PayIdx.blockDot
  refine Finset.sum_congr rfl fun k _ => ?_
  have hk : 256 * s + k.val < 4096 := by have := k.isLt; omega
  rw [dif_pos hk]
  rw [Blocks.comb_blk m c ⟨16 * (t.val / 16) + s, hpt⟩ p k P ⟨256 * s + k.val, hk⟩
      (by show P.val = 512 * ((16 * (t.val / 16) + s) / 16) + p.val; omega)
      (by show 256 * s + k.val = 256 * ((16 * (t.val / 16) + s) % 16) + k.val; omega),
    Blocks.wo_blk m c ⟨16 * (t.val / 16) + s, hpt⟩ q k ⟨256 * s + k.val, hk⟩
      (by show 256 * s + k.val = 256 * ((16 * (t.val / 16) + s) % 16) + k.val; omega)]

/-- At a run's last step the accumulator is that step's own update of what the step before left. -/
theorem cur2 (c : Dev nD) (t : Fin cfg0.N) (h0 : ¬t.val % 16 = 0) (h1 : t.val % 16 = 15) :
    (outsAt0 m c t.val t.isLt).2.2.2.2.1 = k0_pay1 (k0_pay12 (iblk m c 0 t) (outsAt0 m c (t.val - 1) (Nat.lt_of_le_of_lt (Nat.sub_le _ _) t.isLt)).2.2.2.2.1 (iblk m c 3 t)) := by
  rw [outsAt0_C m c t h0 h1]
  dsimp only
  exact Pieces.last2_at (F := Ideal) m c t h0 h1 _ _ _ _

/-! ## Accumulator 3 (the candidate) -/

/-- Step n's addend to accumulator 3 at (p, q): the entry of the step's block product (zero past the grid). -/
def addend3 (c : Dev nD) (n : ℕ) (p : Fin 512) (q : Fin 2048) : EReal :=
  if h : n < cfg0.N then PayIdx.blockDot (iblk m c 0 ⟨n, h⟩) (iblk m c 4 ⟨n, h⟩) p q else 0

/-- The first step of a run leaves zero plus its addend, whatever the accumulator held. -/
theorem first3_step (c : Dev nD) (n : ℕ) (hb : n < cfg0.N) (h0 : n % 16 = 0) (acc : Vec Ideal S512x2048 .f32)
    (p : Fin 512) (q : Fin 2048) :
    Value.scAt0_3 m c n hb acc (ix2 p q) = 0 + addend3 m c n p q := by
  have h1 : ¬n % 16 = 15 := by omega
  unfold Value.scAt0_3
  rw [dif_pos h0, dif_neg h1]
  refine (congrFun (Pieces.first3_at (F := Ideal) m c ⟨n, hb⟩ h0 h1) (ix2 p q)).trans ?_
  rw [PayIdx.pay2_apply (iblk m c 0 ⟨n, hb⟩) (k0_pay8 (F := Ideal)) (iblk m c 4 ⟨n, hb⟩) p q, PayIdx.pay8_apply]
  unfold addend3
  rw [dif_pos hb]

/-- A later step adds its addend to what the step before left. -/
theorem later3_step (c : Dev nD) (n : ℕ) (hb : n < cfg0.N) (h0 : ¬n % 16 = 0) (acc : Vec Ideal S512x2048 .f32)
    (p : Fin 512) (q : Fin 2048) :
    Value.scAt0_3 m c n hb acc (ix2 p q) = acc (ix2 p q) + addend3 m c n p q := by
  unfold Value.scAt0_3
  rw [dif_neg h0]
  by_cases h1 : n % 16 = 15
  · rw [dif_pos h1]
    refine (congrFun (Pieces.last3_at (F := Ideal) m c ⟨n, hb⟩ h0 h1 _ _ _ acc) (ix2 p q)).trans ?_
    rw [PayIdx.pay2_apply (iblk m c 0 ⟨n, hb⟩) acc (iblk m c 4 ⟨n, hb⟩) p q]
    unfold addend3
    rw [dif_pos hb]
  · rw [dif_neg h1]
    refine (congrFun (Pieces.middle3_at (F := Ideal) m c ⟨n, hb⟩ h0 h1 _ _ _ acc) (ix2 p q)).trans ?_
    rw [PayIdx.pay2_apply (iblk m c 0 ⟨n, hb⟩) acc (iblk m c 4 ⟨n, hb⟩) p q]
    unfold addend3
    rw [dif_pos hb]

/-- After the last step of a run, accumulator 3 at (p, q) is the whole row product of the joined input's row P with
    the gate's weight row q. -/
theorem full3 (c : Dev nD) (t : Fin cfg0.N) (ht : t.val % 16 = 15) (p : Fin 512) (q : Fin 2048) (P : Fin 8192)
    (hP : P.val = 512 * (t.val / 16) + p.val) :
    ((outsAt0 m c t.val t.isLt).2.2.2.2.2 : FVec Ideal S512x2048 .f32) (ix2 p q)
      = ∑ k : Fin 4096, Blocks.joined m c (ix2 P k) * m ((c : Thread nD τ).loc main_arg7) (ix2 q k) := by
  have hN : cfg0.N = 256 := N_0
  have htN : t.val < 256 := lt_of_lt_of_eq t.isLt hN
  rw [Value.soutsAt0_3_eq m c t]
  have key := Pipeline.accAt_add_apply
    (a := fun n h => Value.scAt0_3 m c n h (VS0_3.read (Elt Ideal) VS0_3.junk))
    (g := Value.scAt0_3 m c) (Z := fun _ => (0 : EReal))
    (M := fun n i => addend3 m c n ⟨(i 0).val, idx2_lt0 i⟩ ⟨(i 1).val, idx2_lt1 i⟩)
    (b := 16 * (t.val / 16)) (e := 15)
    (fun h i => by
      obtain ⟨p', q', rfl⟩ : ∃ (p' : Fin 512) (q' : Fin 2048), i = ix2 p' q' := ⟨i 0, i 1, eq_ix2 i⟩
      exact first3_step m c _ h (by omega) _ p' q')
    (fun n h acc i hlo hhi => by
      obtain ⟨p', q', rfl⟩ : ∃ (p' : Fin 512) (q' : Fin 2048), i = ix2 p' q' := ⟨i 0, i 1, eq_ix2 i⟩
      exact later3_step m c n h (by omega) acc p' q')
    (t.val % 16) (by omega) (by have h1 := t.isLt; have h2 := Nat.div_add_mod t.val 16; omega) (ix2 p q)
  have e16 : t.val % 16 + 1 = 16 := by omega
  rw [key, zero_add, e16]
  show (∑ s ∈ Finset.range 16, addend3 m c (16 * (t.val / 16) + s) p q) = _
  rw [← Cert.LstmSpec.sum_sixteen_runs (fun k => Blocks.joined m c (ix2 P k) * m ((c : Thread nD τ).loc main_arg7) (ix2 q k))]
  refine Finset.sum_congr rfl fun s hs => ?_
  have hs' : s < 16 := Finset.mem_range.mp hs
  have hpt : 16 * (t.val / 16) + s < cfg0.N := by omega
  unfold addend3
  rw [dif_pos hpt]
  unfold PayIdx.blockDot
  refine Finset.sum_congr rfl fun k _ => ?_
  have hk : 256 * s + k.val < 4096 := by have := k.isLt; omega
  rw [dif_pos hk]
  rw [Blocks.comb_blk m c ⟨16 * (t.val / 16) + s, hpt⟩ p k P ⟨256 * s + k.val, hk⟩
      (by show P.val = 512 * ((16 * (t.val / 16) + s) / 16) + p.val; omega)
      (by show 256 * s + k.val = 256 * ((16 * (t.val / 16) + s) % 16) + k.val; omega),
    Blocks.wc_blk m c ⟨16 * (t.val / 16) + s, hpt⟩ q k ⟨256 * s + k.val, hk⟩
      (by show 256 * s + k.val = 256 * ((16 * (t.val / 16) + s) % 16) + k.val; omega)]

/-- At a run's last step the accumulator is that step's own update of what the step before left. -/
theorem cur3 (c : Dev nD) (t : Fin cfg0.N) (h0 : ¬t.val % 16 = 0) (h1 : t.val % 16 = 15) :
    (outsAt0 m c t.val t.isLt).2.2.2.2.2 = k0_pay2 (k0_pay9 (iblk m c 0 t)) (outsAt0 m c (t.val - 1) (Nat.lt_of_le_of_lt (Nat.sub_le _ _) t.isLt)).2.2.2.2.2 (iblk m c 4 t) := by
  rw [outsAt0_C m c t h0 h1]
  dsimp only
  exact Pieces.last3_at (F := Ideal) m c t h0 h1 _ _ _ _

end Cert.KernelIdeal.Scratch

end
-- ==== Proof.KValue.lean ====
/-
  The kernel's two results as the LSTM cell function of the arguments.

  The output windows are written back only at the last step of each run of sixteen (the other steps leave them alone),
  and the batch tile i's block, rows 512 i .. 512 i + 511 and all 2048 columns, is written back by point 16 i + 15. At
  that point the four accumulators hold the whole row products (the run's fold), the bias rows and the old cell
  state's block are the arguments' entries, and the body's gate arithmetic on them is the cell function's at the whole
  arrays' row. The sixteen tiles' blocks cover the 8192 rows, so each result array is the function everywhere.
-/
import proofs.«153372_j19009525252387_1_alg».proof.Proof.Gen.KernelIdeal.Value
import proofs.«153372_j19009525252387_1_alg».proof.Proof.KPieces
import proofs.«153372_j19009525252387_1_alg».proof.Proof.KPayIdx
import proofs.«153372_j19009525252387_1_alg».proof.Proof.KBlocks
import proofs.«153372_j19009525252387_1_alg».proof.Proof.KScratch
import proofs.«153372_j19009525252387_1_alg».proof.Proof.LstmSpec
import Idealize.ShloMosaic.Lib.Pipeline.Value
import Idealize.ShloMosaic.Lib.ValueIdx

set_option maxRecDepth 16384

noncomputable section

open scoped BigOperators

namespace Cert.KernelIdeal.Final

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The new hidden state of the arguments on core `c`. -/
abbrev hiddenOf (c : Dev nD) : FVec Ideal S8192x2048 .f32 :=
  Cert.LstmSpec.hiddenArr (Blocks.joined m c) (m ((c : Thread nD τ).loc main_arg3)) (m ((c : Thread nD τ).loc main_arg5)) (m ((c : Thread nD τ).loc main_arg9)) (m ((c : Thread nD τ).loc main_arg7))
    (m ((c : Thread nD τ).loc main_arg4)) (m ((c : Thread nD τ).loc main_arg6)) (m ((c : Thread nD τ).loc main_arg10)) (m ((c : Thread nD τ).loc main_arg8)) (m ((c : Thread nD τ).loc main_arg2))

/-- The new cell state of the arguments on core `c`. -/
abbrev cellOf (c : Dev nD) : FVec Ideal S8192x2048 .f32 :=
  Cert.LstmSpec.cellArr (Blocks.joined m c) (m ((c : Thread nD τ).loc main_arg3)) (m ((c : Thread nD τ).loc main_arg5)) (m ((c : Thread nD τ).loc main_arg7))
    (m ((c : Thread nD τ).loc main_arg4)) (m ((c : Thread nD τ).loc main_arg6)) (m ((c : Thread nD τ).loc main_arg8)) (m ((c : Thread nD τ).loc main_arg2))

/-- The two output windows' block of point t is batch tile t / 16, at column block 0. -/
theorem idxOut : ∀ t : Fin cfg0.N, win0_10.index t (0 : Fin 2) = t.val / 16 ∧ win0_10.index t (1 : Fin 2) = 0
    ∧ win0_11.index t (0 : Fin 2) = t.val / 16 ∧ win0_11.index t (1 : Fin 2) = 0 :=
  (by decide +kernel : ∀ t : Fin grid0.N, _)

/-! ## The blocks written back at a run's last step -/

/-- The new cell state's block at (p, q) is the cell function at the whole arrays' row P. -/
theorem cell_val (c : Dev nD) (t : Fin cfg0.N) (h0 : ¬t.val % 16 = 0) (h1 : t.val % 16 = 15) (p : Fin 512) (q : Fin 2048)
    (P : Fin 8192) (hP : P.val = 512 * (t.val / 16) + p.val) :
    out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (ix2 p q)
      = cellOf m c (ix2 P q) := by
  refine (congrFun (Pieces.lastCell_at (F := Ideal) m c t h0 h1 _ _ _ _) (ix2 p q)).trans ?_
  rw [← Scratch.cur0 m c t h0 h1, ← Scratch.cur1 m c t h0 h1, ← Scratch.cur3 m c t h0 h1]
  rw [PayIdx.pay3_apply ((outsAt0 m c t.val t.isLt).2.2.1) (iblk m c 5 t) ((outsAt0 m c t.val t.isLt).2.2.2.1) (iblk m c 6 t) ((outsAt0 m c t.val t.isLt).2.2.2.2.2) (iblk m c 8 t) (iblk m c 9 t) p q]
  rw [Scratch.full0 m c t h1 p q P hP, Scratch.full1 m c t h1 p q P hP, Scratch.full3 m c t h1 p q P hP]
  rw [Blocks.bi_blk m c t q, Blocks.bf_blk m c t q, Blocks.bc_blk m c t q, Blocks.c_blk m c t p q P hP]
  rfl

/-- The new hidden state's block at (p, q) is the hidden-state function at the whole arrays' row P. -/
theorem hidden_val (c : Dev nD) (t : Fin cfg0.N) (h0 : ¬t.val % 16 = 0) (h1 : t.val % 16 = 15) (p : Fin 512) (q : Fin 2048)
    (P : Fin 8192) (hP : P.val = 512 * (t.val / 16) + p.val) :
    out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (ix2 p q)
      = hiddenOf m c (ix2 P q) := by
  refine (congrFun (Pieces.lastHidden_at (F := Ideal) m c t h0 h1 _ _ _ _) (ix2 p q)).trans ?_
  rw [← Scratch.cur0 m c t h0 h1, ← Scratch.cur1 m c t h0 h1, ← Scratch.cur2 m c t h0 h1, ← Scratch.cur3 m c t h0 h1]
  rw [PayIdx.pay4_apply ((outsAt0 m c t.val t.isLt).2.2.1) (iblk m c 5 t) ((outsAt0 m c t.val t.isLt).2.2.2.1) (iblk m c 6 t) ((outsAt0 m c t.val t.isLt).2.2.2.2.1) (iblk m c 7 t) ((outsAt0 m c t.val t.isLt).2.2.2.2.2) (iblk m c 8 t) (iblk m c 9 t) p q]
  rw [PayIdx.pay3_apply ((outsAt0 m c t.val t.isLt).2.2.1) (iblk m c 5 t) ((outsAt0 m c t.val t.isLt).2.2.2.1) (iblk m c 6 t) ((outsAt0 m c t.val t.isLt).2.2.2.2.2) (iblk m c 8 t) (iblk m c 9 t) p q]
  rw [Scratch.full0 m c t h1 p q P hP, Scratch.full1 m c t h1 p q P hP, Scratch.full2 m c t h1 p q P hP, Scratch.full3 m c t h1 p q P hP]
  rw [Blocks.bi_blk m c t q, Blocks.bf_blk m c t q, Blocks.bo_blk m c t q, Blocks.bc_blk m c t q, Blocks.c_blk m c t p q P hP]
  rfl

/-! ## Output window 10: from blocks to the array -/

/-- What a flushing point writes back to window 10's array is its block of the result function. -/
theorem hidden_flushed (c : Dev nD) (t : Fin cfg0.N) (hf : (cfg0.win 10).flush t = true) :
    (dats m 0 c).flushed 10 t = ((cfg0.win 10).blk t).view.read (Elt Ideal) (hiddenOf m c) := by
  have h1 : t.val % 16 = 15 := (flush0_10 t).mp hf
  have h0 : ¬t.val % 16 = 0 := by omega
  have hN : cfg0.N = 256 := N_0
  have htN : t.val < 256 := lt_of_lt_of_eq t.isLt hN
  rw [Value.flushed10_C m c t h0 h1]
  obtain ⟨e0, e1, e2, e3⟩ := idxOut t
  refine funext fun (y : S512x2048.Idx) => ?_
  obtain ⟨p, q, rfl⟩ : ∃ (p : Fin 512) (q : Fin 2048), y = ix2 p q := ⟨y 0, y 1, eq_ix2 y⟩
  have hp : p.val < 512 := p.isLt
  rw [View.read_apply]
  have hemb : ((cfg0.win 10).blk t).view.emb (ix2 p q) = (ix2 (⟨512 * (t.val / 16) + p.val, by omega⟩ : Fin 8192) q : S8192x2048.Idx) := by
    funext a; apply Fin.ext
    match a with
    | ⟨0, _⟩ => show win0_10.index t (0 : Fin 2) * 512 + 1 * p.val = 512 * (t.val / 16) + p.val; rw [e0]; omega
    | ⟨1, _⟩ => show win0_10.index t (1 : Fin 2) * 2048 + 1 * q.val = q.val; rw [e1]; omega
  rw [hemb]
  exact hidden_val m c t h0 h1 p q ⟨512 * (t.val / 16) + p.val, by omega⟩ rfl

/-- An index of the array is in point t's block iff each coordinate is in the block's range on its axis. -/
theorem hidden_mem_blk (t : Fin cfg0.N) (i : S8192x2048.Idx) :
    i ∈ ((cfg0.win 10).blk t).view.set ↔ ∀ a : Fin 2, win0_10.index t a * S512x2048.size a ≤ (i a).val ∧ (i a).val < win0_10.index t a * S512x2048.size a + S512x2048.size a := by
  show i ∈ ((View.whole main_v10_0).slice (win0_10.rect t)).set ↔ _
  rw [View.set_slice_whole, Rect.mem_set_unit]
  exact Iff.rfl

/-- Every index of the array lies in the block of the flushing point of its batch tile. -/
theorem hidden_cover (i : S8192x2048.Idx) :
    ∃ t : Fin cfg0.N, (cfg0.win 10).flush t = true ∧ i ∈ ((cfg0.win 10).blk t).view.set := by
  have hi0 : (i 0).val < 8192 := (i 0).isLt
  have hi1 : (i 1).val < 2048 := (i 1).isLt
  have hN : cfg0.N = 256 := N_0
  have hlt : 16 * ((i 0).val / 512) + 15 < cfg0.N := by omega
  refine ⟨⟨16 * ((i 0).val / 512) + 15, hlt⟩, (flush0_10 _).mpr (by show (16 * ((i 0).val / 512) + 15) % 16 = 15; omega), ?_⟩
  rw [hidden_mem_blk]
  obtain ⟨e0, e1, e2, e3⟩ := idxOut ⟨16 * ((i 0).val / 512) + 15, hlt⟩
  have d0 : (16 * ((i 0).val / 512) + 15) / 16 = (i 0).val / 512 := by omega
  intro a
  match a with
  | ⟨0, _⟩ =>
    show win0_10.index ⟨16 * ((i 0).val / 512) + 15, hlt⟩ (0 : Fin 2) * 512 ≤ (i 0).val ∧ (i 0).val < win0_10.index ⟨16 * ((i 0).val / 512) + 15, hlt⟩ (0 : Fin 2) * 512 + 512
    rw [e0]; show (16 * ((i 0).val / 512) + 15) / 16 * 512 ≤ (i 0).val ∧ (i 0).val < (16 * ((i 0).val / 512) + 15) / 16 * 512 + 512
    rw [d0]; omega
  | ⟨1, _⟩ =>
    show win0_10.index ⟨16 * ((i 0).val / 512) + 15, hlt⟩ (1 : Fin 2) * 2048 ≤ (i 1).val ∧ (i 1).val < win0_10.index ⟨16 * ((i 0).val / 512) + 15, hlt⟩ (1 : Fin 2) * 2048 + 2048
    rw [e1]; omega

/-- The array after the run is the result function. -/
theorem hidden_final (c : Dev nD) : (dats m 0 c).arrAt 10 cfg0.N = hiddenOf m c :=
  (dats m 0 c).arrAt_eq_of_cover 10 (hiddenOf m c) (fun t hf => hidden_flushed m c t hf) (fun i => hidden_cover i)

/-! ## Output window 11: from blocks to the array -/

/-- What a flushing point writes back to window 11's array is its block of the result function. -/
theorem cell_flushed (c : Dev nD) (t : Fin cfg0.N) (hf : (cfg0.win 11).flush t = true) :
    (dats m 0 c).flushed 11 t = ((cfg0.win 11).blk t).view.read (Elt Ideal) (cellOf m c) := by
  have h1 : t.val % 16 = 15 := (flush0_11 t).mp hf
  have h0 : ¬t.val % 16 = 0 := by omega
  have hN : cfg0.N = 256 := N_0
  have htN : t.val < 256 := lt_of_lt_of_eq t.isLt hN
  rw [Value.flushed11_C m c t h0 h1]
  obtain ⟨e0, e1, e2, e3⟩ := idxOut t
  refine funext fun (y : S512x2048.Idx) => ?_
  obtain ⟨p, q, rfl⟩ : ∃ (p : Fin 512) (q : Fin 2048), y = ix2 p q := ⟨y 0, y 1, eq_ix2 y⟩
  have hp : p.val < 512 := p.isLt
  rw [View.read_apply]
  have hemb : ((cfg0.win 11).blk t).view.emb (ix2 p q) = (ix2 (⟨512 * (t.val / 16) + p.val, by omega⟩ : Fin 8192) q : S8192x2048.Idx) := by
    funext a; apply Fin.ext
    match a with
    | ⟨0, _⟩ => show win0_11.index t (0 : Fin 2) * 512 + 1 * p.val = 512 * (t.val / 16) + p.val; rw [e2]; omega
    | ⟨1, _⟩ => show win0_11.index t (1 : Fin 2) * 2048 + 1 * q.val = q.val; rw [e3]; omega
  rw [hemb]
  exact cell_val m c t h0 h1 p q ⟨512 * (t.val / 16) + p.val, by omega⟩ rfl

/-- An index of the array is in point t's block iff each coordinate is in the block's range on its axis. -/
theorem cell_mem_blk (t : Fin cfg0.N) (i : S8192x2048.Idx) :
    i ∈ ((cfg0.win 11).blk t).view.set ↔ ∀ a : Fin 2, win0_11.index t a * S512x2048.size a ≤ (i a).val ∧ (i a).val < win0_11.index t a * S512x2048.size a + S512x2048.size a := by
  show i ∈ ((View.whole main_v10_1).slice (win0_11.rect t)).set ↔ _
  rw [View.set_slice_whole, Rect.mem_set_unit]
  exact Iff.rfl

/-- Every index of the array lies in the block of the flushing point of its batch tile. -/
theorem cell_cover (i : S8192x2048.Idx) :
    ∃ t : Fin cfg0.N, (cfg0.win 11).flush t = true ∧ i ∈ ((cfg0.win 11).blk t).view.set := by
  have hi0 : (i 0).val < 8192 := (i 0).isLt
  have hi1 : (i 1).val < 2048 := (i 1).isLt
  have hN : cfg0.N = 256 := N_0
  have hlt : 16 * ((i 0).val / 512) + 15 < cfg0.N := by omega
  refine ⟨⟨16 * ((i 0).val / 512) + 15, hlt⟩, (flush0_11 _).mpr (by show (16 * ((i 0).val / 512) + 15) % 16 = 15; omega), ?_⟩
  rw [cell_mem_blk]
  obtain ⟨e0, e1, e2, e3⟩ := idxOut ⟨16 * ((i 0).val / 512) + 15, hlt⟩
  have d0 : (16 * ((i 0).val / 512) + 15) / 16 = (i 0).val / 512 := by omega
  intro a
  match a with
  | ⟨0, _⟩ =>
    show win0_11.index ⟨16 * ((i 0).val / 512) + 15, hlt⟩ (0 : Fin 2) * 512 ≤ (i 0).val ∧ (i 0).val < win0_11.index ⟨16 * ((i 0).val / 512) + 15, hlt⟩ (0 : Fin 2) * 512 + 512
    rw [e2]; show (16 * ((i 0).val / 512) + 15) / 16 * 512 ≤ (i 0).val ∧ (i 0).val < (16 * ((i 0).val / 512) + 15) / 16 * 512 + 512
    rw [d0]; omega
  | ⟨1, _⟩ =>
    show win0_11.index ⟨16 * ((i 0).val / 512) + 15, hlt⟩ (1 : Fin 2) * 2048 ≤ (i 1).val ∧ (i 1).val < win0_11.index ⟨16 * ((i 0).val / 512) + 15, hlt⟩ (1 : Fin 2) * 2048 + 2048
    rw [e3]; omega

/-- The array after the run is the result function. -/
theorem cell_final (c : Dev nD) : (dats m 0 c).arrAt 11 cfg0.N = cellOf m c :=
  (dats m 0 c).arrAt_eq_of_cover 11 (cellOf m c) (fun t hf => cell_flushed m c t hf) (fun i => cell_cover i)

/-! ## The run, read -/

/-- Every weakly fair execution of the kernel's program ends with the two results at the cell function of the
    arguments, and the arguments unchanged. -/
theorem run : θ_run defs (onTc (τ := τ) (main (F := Ideal))) ⟨m, fun _ => 0, ρ⟩ fun r => ∀ c : Dev nD,
      r.2.mem ((c : Thread nD τ).loc main_v10_0) = hiddenOf m c
      ∧ r.2.mem ((c : Thread nD τ).loc main_v10_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (hidden_final m c), (h c).2.1.trans (cell_final m c), (h c).2.2⟩)
    (Value.run_blocks m ρ)

end Cert.KernelIdeal.Final

end
-- ==== Proof.LibConcatFour.lean ====
/-
  A concatenation of FOUR pieces of one shape, read at an index.

  `jnp.concatenate([y0, y1, y2, y3], axis=0)` of four `[n, c]` arrays is a `[T, c]` array (`T = 4·n`) whose row
  `g·n + r` is row `r` of piece `g`; of four `[n]` vectors it is a `[T]` vector whose entry `g·n + r` is entry `r` of
  piece `g`. Both are the library's reading of a concatenation at an index — the piece whose span along the joined
  axis holds the coordinate, at the coordinate less the extents before it — with the four cases written out.
-/
import Idealize.ShloMosaic.Lib.Pipeline.Value
import Idealize.ShloMosaic.Lib.ValueIdx

namespace ConcatFour

open Idealize.ShloMosaic Idealize.ShloMosaic.ValueIdx

variable {α : Type}

/-- The four pieces of one shape as the list a concatenation takes. -/
abbrev four {s : Shape} (y0 y1 y2 y3 : s.Idx → α) : List ((s : Shape) × (s.Idx → α)) := [⟨s, y0⟩, ⟨s, y1⟩, ⟨s, y2⟩, ⟨s, y3⟩]

/-- The four pieces as a family over `Fin 4`. -/
def pick (y0 y1 y2 y3 : α) : Fin 4 → α
  | ⟨0, _⟩ => y0 | ⟨1, _⟩ => y1 | ⟨2, _⟩ => y2 | ⟨3, _⟩ => y3
  | ⟨_ + 4, h⟩ => absurd h (Nat.not_lt.2 (Nat.le_add_left _ _))

/-- Four `[n, c]` arrays stacked along the rows: row `g·n + r` of the result is row `r` of piece `g`. -/
theorem rows_apply {n c T : Nat} (y0 y1 y2 y3 : (⟨2, ![n, c]⟩ : Shape).Idx → α)
    (h : Shape.Concatenates [(⟨2, ![n, c]⟩ : Shape), ⟨2, ![n, c]⟩, ⟨2, ![n, c]⟩, ⟨2, ![n, c]⟩] (⟨2, ![T, c]⟩ : Shape) 0)
    (g : Fin 4) (r : Fin n) (q : Fin c) (R : Fin T) (hR : R.val = g.val * n + r.val) :
    concatenate (⟨2, ![T, c]⟩ : Shape) 0 [⟨⟨2, ![n, c]⟩, y0⟩, ⟨⟨2, ![n, c]⟩, y1⟩, ⟨⟨2, ![n, c]⟩, y2⟩, ⟨⟨2, ![n, c]⟩, y3⟩] h (ix2 R q)
      = pick y0 y1 y2 y3 g (ix2 r q) := by
  have hoff : ∀ b : Fin 2, b.cast rfl ≠ (0 : Fin 2) → ((ix2 r q : (⟨2, ![n, c]⟩ : Shape).Idx) b).val = ((ix2 R q : (⟨2, ![T, c]⟩ : Shape).Idx) (b.cast rfl)).val := by
    intro b hb
    match b, hb with
    | ⟨0, _⟩, hb => exact absurd rfl hb
    | ⟨1, _⟩, _ => rfl
  match g, hR with
  | ⟨0, _⟩, hR =>
    exact concatenate_apply_piece (t := ⟨2, ![T, c]⟩) 0 (four y0 y1 y2 y3) h (ix2 R q) 0 (by show (0 : Nat) < 4; omega) ⟨2, ![n, c]⟩ y0 rfl rfl 0 (by simp <;> omega)
      (ix2 r q) hoff (by show 0 + r.val = R.val; simp at hR; omega)
  | ⟨1, _⟩, hR =>
    exact concatenate_apply_piece (t := ⟨2, ![T, c]⟩) 0 (four y0 y1 y2 y3) h (ix2 R q) 1 (by show (1 : Nat) < 4; omega) ⟨2, ![n, c]⟩ y1 rfl rfl n (by simp <;> omega)
      (ix2 r q) hoff (by show n + r.val = R.val; simp at hR; omega)
  | ⟨2, _⟩, hR =>
    exact concatenate_apply_piece (t := ⟨2, ![T, c]⟩) 0 (four y0 y1 y2 y3) h (ix2 R q) 2 (by show (2 : Nat) < 4; omega) ⟨2, ![n, c]⟩ y2 rfl rfl (n + n) (by simp <;> omega)
      (ix2 r q) hoff (by show n + n + r.val = R.val; simp at hR; omega)
  | ⟨3, _⟩, hR =>
    exact concatenate_apply_piece (t := ⟨2, ![T, c]⟩) 0 (four y0 y1 y2 y3) h (ix2 R q) 3 (by show (3 : Nat) < 4; omega) ⟨2, ![n, c]⟩ y3 rfl rfl (n + n + n) (by simp <;> omega)
      (ix2 r q) hoff (by show n + n + n + r.val = R.val; simp at hR; omega)

/-- Four `[n]` vectors laid end to end: entry `g·n + r` of the result is entry `r` of piece `g`. -/
theorem vec_apply {n T : Nat} (y0 y1 y2 y3 : (⟨1, ![n]⟩ : Shape).Idx → α)
    (h : Shape.Concatenates [(⟨1, ![n]⟩ : Shape), ⟨1, ![n]⟩, ⟨1, ![n]⟩, ⟨1, ![n]⟩] (⟨1, ![T]⟩ : Shape) 0)
    (g : Fin 4) (r : Fin n) (R : Fin T) (hR : R.val = g.val * n + r.val) :
    concatenate (⟨1, ![T]⟩ : Shape) 0 [⟨⟨1, ![n]⟩, y0⟩, ⟨⟨1, ![n]⟩, y1⟩, ⟨⟨1, ![n]⟩, y2⟩, ⟨⟨1, ![n]⟩, y3⟩] h (ix1 R)
      = pick y0 y1 y2 y3 g (ix1 r) := by
  have hoff : ∀ b : Fin 1, b.cast rfl ≠ (0 : Fin 1) → ((ix1 r : (⟨1, ![n]⟩ : Shape).Idx) b).val = ((ix1 R : (⟨1, ![T]⟩ : Shape).Idx) (b.cast rfl)).val := by
    intro b hb
    match b, hb with
    | ⟨0, _⟩, hb => exact absurd rfl hb
  match g, hR with
  | ⟨0, _⟩, hR =>
    exact concatenate_apply_piece (t := ⟨1, ![T]⟩) 0 (four y0 y1 y2 y3) h (ix1 R) 0 (by show (0 : Nat) < 4; omega) ⟨1, ![n]⟩ y0 rfl rfl 0 (by simp <;> omega)
      (ix1 r) hoff (by show 0 + r.val = R.val; simp at hR; omega)
  | ⟨1, _⟩, hR =>
    exact concatenate_apply_piece (t := ⟨1, ![T]⟩) 0 (four y0 y1 y2 y3) h (ix1 R) 1 (by show (1 : Nat) < 4; omega) ⟨1, ![n]⟩ y1 rfl rfl n (by simp <;> omega)
      (ix1 r) hoff (by show n + r.val = R.val; simp at hR; omega)
  | ⟨2, _⟩, hR =>
    exact concatenate_apply_piece (t := ⟨1, ![T]⟩) 0 (four y0 y1 y2 y3) h (ix1 R) 2 (by show (2 : Nat) < 4; omega) ⟨1, ![n]⟩ y2 rfl rfl (n + n) (by simp <;> omega)
      (ix1 r) hoff (by show n + n + r.val = R.val; simp at hR; omega)
  | ⟨3, _⟩, hR =>
    exact concatenate_apply_piece (t := ⟨1, ![T]⟩) 0 (four y0 y1 y2 y3) h (ix1 R) 3 (by show (3 : Nat) < 4; omega) ⟨1, ![n]⟩ y3 rfl rfl (n + n + n) (by simp <;> omega)
      (ix1 r) hoff (by show n + n + n + r.val = R.val; simp at hR; omega)

end ConcatFour
-- ==== Proof.RefValue.lean ====
/-
  The reference computes the LSTM cell function.

  The reference joins x and h, stacks the four gates' weight matrices (input, forget, output, candidate) into one
  [8192, 4096] matrix and their biases into one [8192] vector, takes ONE product of the joined input with the stacked
  matrix transposed, adds the bias, and cuts the [8192, 8192] result into four [8192, 2048] gate arrays by column
  ranges. Entry (p, g * 2048 + q) of the product is the sum over k of u[p, k] * W_g[q, k], since row g * 2048 + q of the
  stack is row q of gate g's matrix; likewise for the bias. So each cut is that gate's pre-activation, and the
  elementwise tail (the logistic function written as 1 / (1 + exp(-t)), tanh, products, one sum) is the cell function's.

  The steps, in order: a row of the stacked weights and an entry of the stacked biases (which piece, which row); the
  product plus bias at column g * 2048 + q, for any of the four gates g at once; the four cuts as that fact at
  g = 0, 1, 2, 3; the three logistic gates; the new cell state and the new hidden state at (p, q); the two arrays.
-/
import proofs.«153372_j19009525252387_1_alg».proof.Proof.Gen.ReferenceIdeal.Read
import proofs.«153372_j19009525252387_1_alg».proof.Proof.LstmSpec
import proofs.«153372_j19009525252387_1_alg».proof.Proof.LibConcatFour
import proofs.«153372_j19009525252387_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.ShloMosaic.ValueIdx

/-- The joined input [x, h], as @main's first operation builds it. -/
abbrev joined (x0 x1 : (⟨S8192x2048, .f32⟩ : BufTy).Contents (Elt Ideal)) : (⟨S8192x4096, .f32⟩ : BufTy).Contents (Elt Ideal) :=
  concatenate S8192x4096 1 [⟨S8192x2048, x0⟩, ⟨S8192x2048, x1⟩] concatenates_S8192x2048_S8192x2048_S8192x4096_d1

variable (x0 x1 x2 : (⟨S8192x2048, .f32⟩ : BufTy).Contents (Elt Ideal))
  (x3 : (⟨S2048x4096, .f32⟩ : BufTy).Contents (Elt Ideal)) (x4 : (⟨S2048, .f32⟩ : BufTy).Contents (Elt Ideal))
  (x5 : (⟨S2048x4096, .f32⟩ : BufTy).Contents (Elt Ideal)) (x6 : (⟨S2048, .f32⟩ : BufTy).Contents (Elt Ideal))
  (x7 : (⟨S2048x4096, .f32⟩ : BufTy).Contents (Elt Ideal)) (x8 : (⟨S2048, .f32⟩ : BufTy).Contents (Elt Ideal))
  (x9 : (⟨S2048x4096, .f32⟩ : BufTy).Contents (Elt Ideal)) (x10 : (⟨S2048, .f32⟩ : BufTy).Contents (Elt Ideal))

/-! ## The stacked weights and biases, piece by piece -/

/-- The first operation's value is the joined input. -/
theorem joined_eq : Read.val_main_v0 (F := Ideal) x0 x1 = joined x0 x1 := rfl

/-- Row `g * 2048 + r` of the stacked weights is row `r` of gate `g`'s matrix (the stack's order is input, forget,
    output, candidate). -/
theorem stacked_row (g : Fin 4) (r : Fin 2048) (k : Fin 4096) (c : Fin 8192) (hc : c.val = g.val * 2048 + r.val) :
    Read.val_main_v1 (F := Ideal) x3 x5 x7 x9 (ix2 c k) = ConcatFour.pick x3 x5 x9 x7 g (ix2 r k) := by
  unfold Read.val_main_v1
  exact ConcatFour.rows_apply x3 x5 x9 x7 concatenates_S2048x4096_S2048x4096_S2048x4096_S2048x4096_S8192x4096_d0 g r k c hc

/-- Entry `g * 2048 + r` of the stacked biases is entry `r` of gate `g`'s bias. -/
theorem stacked_bias (g : Fin 4) (r : Fin 2048) (c : Fin 8192) (hc : c.val = g.val * 2048 + r.val) :
    Read.val_main_v2 (F := Ideal) x4 x6 x8 x10 (ix1 c) = ConcatFour.pick x4 x6 x10 x8 g (ix1 r) := by
  unfold Read.val_main_v2
  exact ConcatFour.vec_apply x4 x6 x10 x8 concatenates_S2048_S2048_S2048_S2048_S8192_d0 g r c hc

/-! ## One gate's pre-activation inside the [8192, 8192] product -/

/-- The product at `(p, g * 2048 + r)`: the joined input's row `p` against row `r` of gate `g`'s matrix. -/
theorem product_at (g : Fin 4) (p : Fin 8192) (r : Fin 2048) (c : Fin 8192) (hc : c.val = g.val * 2048 + r.val) :
    Read.val_main_v4 (F := Ideal) x0 x1 x3 x5 x7 x9 (ix2 p c)
      = ∑ k : Fin 4096, joined x0 x1 (ix2 p k) * ConcatFour.pick x3 x5 x9 x7 g (ix2 r k) := by
  have el : ∀ k : Fin 4096, Read.lidx_main_v4 (ix2 p c) k = ix2 p k := fun k =>
    funext fun a => Fin.ext (by match a with | ⟨0, _⟩ => rfl | ⟨1, _⟩ => rfl)
  have er : ∀ k : Fin 4096, Read.idx_main_v3 (Read.ridx_main_v4 (ix2 p c) k) = ix2 c k := fun k =>
    funext fun a => Fin.ext (by match a with | ⟨0, _⟩ => rfl | ⟨1, _⟩ => rfl)
  rw [Read.val_main_v4_apply]
  refine Finset.sum_congr rfl fun k _ => ?_
  rw [Read.val_main_v3_apply, el, er, stacked_row x3 x5 x7 x9 g r k c hc, joined_eq]

/-- The product plus the broadcast bias at `(p, g * 2048 + r)` is gate `g`'s pre-activation at `(p, r)`. -/
theorem gate_at (g : Fin 4) (p : Fin 8192) (r : Fin 2048) (c : Fin 8192) (hc : c.val = g.val * 2048 + r.val) :
    Read.val_main_v7 (F := Ideal) x0 x1 x3 x4 x5 x6 x7 x8 x9 x10 (ix2 p c)
      = Cert.LstmSpec.gate (joined x0 x1) (ConcatFour.pick x3 x5 x9 x7 g) (ConcatFour.pick x4 x6 x10 x8 g) p r := by
  have eb : Read.idx_main_v5 (Read.idx_main_v6 (ix2 p c)) = ix1 c :=
    funext fun a => Fin.ext (by match a with | ⟨0, _⟩ => rfl)
  rw [Read.val_main_v7_apply, Read.val_main_v6_apply, Read.val_main_v5_apply, eb, stacked_bias x4 x6 x8 x10 g r c hc,
    product_at x0 x1 x3 x5 x7 x9 g p r c hc]
  rfl

/-! ## The four cuts -/

/-- Columns 0 to 2047 hold the input gate's pre-activation. -/
theorem pre_input (p : Fin 8192) (q : Fin 2048) :
    Read.val_main_v8 (F := Ideal) x0 x1 x3 x4 x5 x6 x7 x8 x9 x10 (ix2 p q) = Cert.LstmSpec.gate (joined x0 x1) x3 x4 p q := by
  have hq : q.val < 2048 := q.isLt
  have e : Read.idx_main_v8 (ix2 p q) = ix2 p (⟨q.val, by omega⟩ : Fin 8192) :=
    funext fun a => Fin.ext (by match a with | ⟨0, _⟩ => rfl | ⟨1, _⟩ => rfl)
  rw [Read.val_main_v8_apply, e]
  exact gate_at x0 x1 x3 x4 x5 x6 x7 x8 x9 x10 ⟨0, by omega⟩ p q ⟨q.val, by omega⟩
    (by show q.val = 0 * 2048 + q.val; omega)

/-- Columns 2048 to 4095 hold the forget gate's pre-activation. -/
theorem pre_forget (p : Fin 8192) (q : Fin 2048) :
    Read.val_main_v9 (F := Ideal) x0 x1 x3 x4 x5 x6 x7 x8 x9 x10 (ix2 p q) = Cert.LstmSpec.gate (joined x0 x1) x5 x6 p q := by
  have hq : q.val < 2048 := q.isLt
  have e : Read.idx_main_v9 (ix2 p q) = ix2 p (⟨2048 + q.val, by omega⟩ : Fin 8192) :=
    funext fun a => Fin.ext (by match a with | ⟨0, _⟩ => rfl | ⟨1, _⟩ => rfl)
  rw [Read.val_main_v9_apply, e]
  exact gate_at x0 x1 x3 x4 x5 x6 x7 x8 x9 x10 ⟨1, by omega⟩ p q ⟨2048 + q.val, by omega⟩
    (by show 2048 + q.val = 1 * 2048 + q.val; omega)

/-- Columns 4096 to 6143 hold the output gate's pre-activation. -/
theorem pre_output (p : Fin 8192) (q : Fin 2048) :
    Read.val_main_v10 (F := Ideal) x0 x1 x3 x4 x5 x6 x7 x8 x9 x10 (ix2 p q) = Cert.LstmSpec.gate (joined x0 x1) x9 x10 p q := by
  have hq : q.val < 2048 := q.isLt
  have e : Read.idx_main_v10 (ix2 p q) = ix2 p (⟨4096 + q.val, by omega⟩ : Fin 8192) :=
    funext fun a => Fin.ext (by match a with | ⟨0, _⟩ => rfl | ⟨1, _⟩ => rfl)
  rw [Read.val_main_v10_apply, e]
  exact gate_at x0 x1 x3 x4 x5 x6 x7 x8 x9 x10 ⟨2, by omega⟩ p q ⟨4096 + q.val, by omega⟩
    (by show 4096 + q.val = 2 * 2048 + q.val; omega)

/-- Columns 6144 to 8191 hold the candidate's pre-activation. -/
theorem pre_candidate (p : Fin 8192) (q : Fin 2048) :
    Read.val_main_v11 (F := Ideal) x0 x1 x3 x4 x5 x6 x7 x8 x9 x10 (ix2 p q) = Cert.LstmSpec.gate (joined x0 x1) x7 x8 p q := by
  have hq : q.val < 2048 := q.isLt
  have e : Read.idx_main_v11 (ix2 p q) = ix2 p (⟨6144 + q.val, by omega⟩ : Fin 8192) :=
    funext fun a => Fin.ext (by match a with | ⟨0, _⟩ => rfl | ⟨1, _⟩ => rfl)
  rw [Read.val_main_v11_apply, e]
  exact gate_at x0 x1 x3 x4 x5 x6 x7 x8 x9 x10 ⟨3, by omega⟩ p q ⟨6144 + q.val, by omega⟩
    (by show 6144 + q.val = 3 * 2048 + q.val; omega)

/-! ## The three logistic gates: 1 / (1 + exp(-t)) over the literal one -/

/-- The input gate at `(p, q)`. -/
theorem gate_input (p : Fin 8192) (q : Fin 2048) :
    Read.val_main_v17 (F := Ideal) x0 x1 x3 x4 x5 x6 x7 x8 x9 x10 (ix2 p q) = Ideal.logistic (Cert.LstmSpec.gate (joined x0 x1) x3 x4 p q) := by
  rw [Read.val_main_v17_apply, Read.val_main_v16_apply, Read.val_main_cst_0_apply, Read.val_main_v15_apply,
    Read.val_main_v14_apply, Read.val_main_cst_apply, Read.val_main_v13_apply, Read.val_main_v12_apply, pre_input x0 x1 x3 x4 x5 x6 x7 x8 x9 x10 p q]
  simp only [Ideal.hostDivf_def, Ideal.addf_def, Ideal.hostUnary_exp_def, Ideal.hostNegf_def, Ideal.negf_def, Ideal.ofBits_def]
  exact Cert.LstmSpec.logistic_spelled _

/-- The forget gate at `(p, q)`. -/
theorem gate_forget (p : Fin 8192) (q : Fin 2048) :
    Read.val_main_v23 (F := Ideal) x0 x1 x3 x4 x5 x6 x7 x8 x9 x10 (ix2 p q) = Ideal.logistic (Cert.LstmSpec.gate (joined x0 x1) x5 x6 p q) := by
  rw [Read.val_main_v23_apply, Read.val_main_v22_apply, Read.val_main_cst_2_apply, Read.val_main_v21_apply,
    Read.val_main_v20_apply, Read.val_main_cst_1_apply, Read.val_main_v19_apply, Read.val_main_v18_apply, pre_forget x0 x1 x3 x4 x5 x6 x7 x8 x9 x10 p q]
  simp only [Ideal.hostDivf_def, Ideal.addf_def, Ideal.hostUnary_exp_def, Ideal.hostNegf_def, Ideal.negf_def, Ideal.ofBits_def]
  exact Cert.LstmSpec.logistic_spelled _

/-- The output gate at `(p, q)`. -/
theorem gate_output (p : Fin 8192) (q : Fin 2048) :
    Read.val_main_v29 (F := Ideal) x0 x1 x3 x4 x5 x6 x7 x8 x9 x10 (ix2 p q) = Ideal.logistic (Cert.LstmSpec.gate (joined x0 x1) x9 x10 p q) := by
  rw [Read.val_main_v29_apply, Read.val_main_v28_apply, Read.val_main_cst_4_apply, Read.val_main_v27_apply,
    Read.val_main_v26_apply, Read.val_main_cst_3_apply, Read.val_main_v25_apply, Read.val_main_v24_apply, pre_output x0 x1 x3 x4 x5 x6 x7 x8 x9 x10 p q]
  simp only [Ideal.hostDivf_def, Ideal.addf_def, Ideal.hostUnary_exp_def, Ideal.hostNegf_def, Ideal.negf_def, Ideal.ofBits_def]
  exact Cert.LstmSpec.logistic_spelled _

/-! ## The new cell state and the new hidden state -/

/-- The new cell state at `(p, q)`: forget gate times old cell state plus input gate times the candidate's tanh. -/
theorem cell_at (p : Fin 8192) (q : Fin 2048) :
    Read.val_main_v33 (F := Ideal) x0 x1 x2 x3 x4 x5 x6 x7 x8 x9 x10 (ix2 p q)
      = Cert.LstmSpec.cellAt (joined x0 x1) x3 x5 x7 x4 x6 x8 x2 p q := by
  rw [Read.val_main_v33_apply, Read.val_main_v31_apply, Read.val_main_v32_apply, Read.val_main_v30_apply,
    gate_forget x0 x1 x3 x4 x5 x6 x7 x8 x9 x10 p q, gate_input x0 x1 x3 x4 x5 x6 x7 x8 x9 x10 p q, pre_candidate x0 x1 x3 x4 x5 x6 x7 x8 x9 x10 p q]
  simp only [Ideal.addf_def, Ideal.mulf_def, Ideal.hostUnary_tanh_def]
  rfl

/-- The new hidden state at `(p, q)`: output gate times the new cell state's tanh. -/
theorem hidden_at (p : Fin 8192) (q : Fin 2048) :
    Read.val_main_v35 (F := Ideal) x0 x1 x2 x3 x4 x5 x6 x7 x8 x9 x10 (ix2 p q)
      = Cert.LstmSpec.hiddenAt (joined x0 x1) x3 x5 x9 x7 x4 x6 x10 x8 x2 p q := by
  rw [Read.val_main_v35_apply, Read.val_main_v34_apply, gate_output x0 x1 x3 x4 x5 x6 x7 x8 x9 x10 p q, cell_at x0 x1 x2 x3 x4 x5 x6 x7 x8 x9 x10 p q]
  simp only [Ideal.mulf_def, Ideal.hostUnary_tanh_def]
  rfl

/-- The reference's second result, the new cell state, is the cell function of the arguments
    (input gate: x3, x4; forget gate: x5, x6; candidate: x7, x8; old cell state: x2). -/
theorem cell_eq :
    Read.val_main_v33 (F := Ideal) x0 x1 x2 x3 x4 x5 x6 x7 x8 x9 x10
      = Cert.LstmSpec.cellArr (joined x0 x1) x3 x5 x7 x4 x6 x8 x2 := by
  funext i
  obtain ⟨p, q, rfl⟩ : ∃ (p : Fin 8192) (q : Fin 2048), i = ix2 p q := ⟨i 0, i 1, eq_ix2 i⟩
  rw [Cert.LstmSpec.cellArr_apply]
  exact cell_at x0 x1 x2 x3 x4 x5 x6 x7 x8 x9 x10 p q

/-- The reference's first result, the new hidden state, is the hidden-state function of the arguments
    (output gate: x9, x10). -/
theorem hidden_eq :
    Read.val_main_v35 (F := Ideal) x0 x1 x2 x3 x4 x5 x6 x7 x8 x9 x10
      = Cert.LstmSpec.hiddenArr (joined x0 x1) x3 x5 x9 x7 x4 x6 x10 x8 x2 := by
  funext i
  obtain ⟨p, q, rfl⟩ : ∃ (p : Fin 8192) (q : Fin 2048), i = ix2 p q := ⟨i 0, i 1, eq_ix2 i⟩
  rw [Cert.LstmSpec.hiddenArr_apply]
  exact hidden_at x0 x1 x2 x3 x4 x5 x6 x7 x8 x9 x10 p q

end Cert.ReferenceIdeal.RefValue

end
-- ==== Proof.lean ====
/-
  The proof of `Cert.Claim`: an LSTM cell computed by a tiled kernel against the plain host computation.

  With u = [x, h] the joined input, each gate's pre-activation is  a(p, q) = (sum over k < 4096 of u[p, k] * W[q, k]) + b[q];
  the new cell state is  s(a_f) * c + s(a_i) * tanh(a_c)  and the new hidden state  s(a_o) * tanh(new cell state), with s
  the logistic function. The kernel walks a 16 x 16 grid: for each batch tile of 512 rows it takes sixteen steps along
  the joined input's 4096 columns, 256 at a time, adding each step's block product to four accumulators that it zeroes
  at the first step, and at the last step adds the biases and forms the two results. The host computation stacks the
  four weight matrices, takes one product, adds the stacked bias and cuts the four gates out by column ranges.

  On the extended reals the two are one function of the arguments, index by index: narrowing the operands to bf16 is
  the identity there, sixteen runs of 256 columns make the whole sum of 4096 (commutativity and associativity of the
  sum, and 0 + x = x), and the logistic function the kernel applies is the quotient 1 / (1 + exp(-t)) the host writes
  out, at every extended real. No finiteness of the inputs is used. The kernel's idealization rewrote no operation,
  so what it preserves is trivially true.

  The frames are the generated frame certificates; the reference's frame is its generated run with the results dropped.
-/
import proofs.«153372_j19009525252387_1_alg».proof.Defs
import proofs.«153372_j19009525252387_1_alg».proof.Proof.Gen.Kernel
import proofs.«153372_j19009525252387_1_alg».proof.Proof.Gen.Kernel.Frame
import proofs.«153372_j19009525252387_1_alg».proof.Proof.Gen.KernelIdeal
import proofs.«153372_j19009525252387_1_alg».proof.Proof.Gen.KernelIdeal.Frame
import proofs.«153372_j19009525252387_1_alg».proof.Proof.Gen.KernelIdeal.Value
import proofs.«153372_j19009525252387_1_alg».proof.Proof.Gen.ReferenceIdeal
import proofs.«153372_j19009525252387_1_alg».proof.Proof.Gen.ReferenceIdeal.Run
import proofs.«153372_j19009525252387_1_alg».proof.Proof.Gen.ReferenceIdeal.Read
import proofs.«153372_j19009525252387_1_alg».proof.Proof.Gen.Pre_finite_inputs
import proofs.«153372_j19009525252387_1_alg».proof.Proof.KValue
import proofs.«153372_j19009525252387_1_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the host computation: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments both programs end with the new hidden state and the new cell state of
    those arguments: the kernel's run posts the cell function of its arguments, the host's run posts its stages, which
    are the same function of the same arguments. -/
theorem algebraic : Cert.algebraic_KernelIdeal_ReferenceIdeal := by
  intro m ρ m' ρ' _ hagree
  refine ⟨fun c => Cert.KernelIdeal.Final.hiddenOf m c, fun c => Cert.KernelIdeal.Final.cellOf m c,
    Cert.KernelIdeal.Final.run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · refine (Cert.ReferenceIdeal.Read.val_main_v35_eq m' c).trans ?_
    refine (Cert.ReferenceIdeal.RefValue.hidden_eq
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  · refine (Cert.ReferenceIdeal.Read.val_main_v33_eq
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))).trans ?_
    refine (Cert.ReferenceIdeal.RefValue.cell_eq
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
